-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  main_v18

def fn {F : FTy → Type} [FloatOps F] (main_arg0 : FVec F S50000x128 .f32) (main_arg1 : FVec F S3x128x128 .f32) (main_arg2 : FVec F S3x128 .f32) (main_arg3 : FVec F S3x128x128 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x1x128 : Shape := ⟨3, ![50000, 1, 128]⟩
abbrev S50000x3x128 : Shape := ⟨3, ![50000, 3, 128]⟩

abbrev nBuf : Space → Nat
  | .hbm => 105
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128x128, .f32⟩
  | .hbm, ⟨94, _⟩ => ⟨S128x128, .f32⟩
  | .hbm, ⟨95, _⟩ => ⟨S1x128, .f32⟩
  | .hbm, ⟨96, _⟩ => ⟨S128, .f32⟩
  | .hbm, ⟨97, _⟩ => ⟨S1x128x128, .f32⟩
  | .hbm, ⟨98, _⟩ => ⟨S128x128, .f32⟩
  | .hbm, ⟨99, _⟩ => ⟨S1x128, .f32⟩
  | .hbm, ⟨100, _⟩ => ⟨S50000x128, .f32⟩
  | .hbm, ⟨101, _⟩ => ⟨S50000x1x128, .f32⟩
  | .hbm, ⟨102, _⟩ => ⟨S50000x1x128, .f32⟩
  | .hbm, ⟨103, _⟩ => ⟨S50000x1x128, .f32⟩
  | .hbm, ⟨104, _⟩ => ⟨S50000x3x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call2_cst : Ref sig .tc := ⟨.hbm, 75, rfl⟩
abbrev main_call2_v0 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1x128 : Shape := ⟨3, ![50000, 1, 128]⟩
abbrev S50000x3x128 : Shape := ⟨3, ![50000, 3, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128x128, .f32⟩
  | .hbm, ⟨102, _⟩ => ⟨S128x128, .f32⟩
  | .hbm, ⟨103, _⟩ => ⟨S50000x128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S1x128x128, .f32⟩
  | .hbm, ⟨110, _⟩ => ⟨S128x128, .f32⟩
  | .hbm, ⟨111, _⟩ => ⟨S50000x128, .f32⟩
  | .hbm, ⟨112, _⟩ => ⟨S50000x128, .f32⟩
  | .hbm, ⟨113, _⟩ => ⟨S50000x1x128, .f32⟩
  | .hbm, ⟨114, _⟩ => ⟨S50000x1x128, .f32⟩
  | .hbm, ⟨115, _⟩ => ⟨S50000x1x128, .f32⟩
  | .hbm, ⟨116, _⟩ => ⟨S50000x3x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call2_cst : Ref sig .tc := ⟨.hbm, 83, rfl⟩
abbrev main_call2_v0 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Region0.lean ====
/-
  Region 0 of the program, at a parameter `V`: the contents of the core's buffers when the region is entered.
  The region is one pallas_call on a grid of ten points. Each point reads a 5000×128 block of the aggregated
  neighbour features (window 0) and of the node features (window 1), the whole 128×128 neighbour weight (window 2),
  the 1×128 bias (window 3) and the whole 128×128 root weight (window 4), and writes one 5000×128 block of the
  layer's output (window 5): the two matrix products added, then the bias row added to every row.
  Stated here: each window's block at a point as a read of the array the region finds; that every input's staging
  buffer holds that block whenever the body runs (also for the three windows whose block never moves and is
  fetched once); what the body leaves in the output's buffer as one function of the five input blocks; the body's
  triple; the proof data of the pipeline; and the body obligation at every point.
-/
import proofs.«107073_j33998961116076_1_alg».proof.Proof.Gen.Kernel.Launch
import proofs.«107073_j33998961116076_1_alg».proof.Proof.Gen.Kernel.Skeleton
import proofs.«107073_j33998961116076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the index map picks, read off the array as the
    region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block whenever the body runs, fetched at that point or not: where it is
    not fetched the block index has not moved, and the body leaves an input's buffer as it found it. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body runs, fetched at that point or not: where it is
    not fetched the block index has not moved, and the body leaves an input's buffer as it found it. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body runs, fetched at that point or not: where it is
    not fetched the block index has not moved, and the body leaves an input's buffer as it found it. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body runs, fetched at that point or not: where it is
    not fetched the block index has not moved, and the body leaves an input's buffer as it found it. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body runs, fetched at that point or not: where it is
    not fetched the block index has not moved, and the body leaves an input's buffer as it found it. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rBlock : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the output window's buffer -/

/-- The output buffer after the body, from the five input blocks: its one store, of the layer's combination of them. -/
def outBlock (a h : Vec F S5000x128 .f32) (wl : Vec F S128x128 .f32) (b : Vec F S1x128 .f32) (wr : Vec F S128x128 .f32) : Vec F S5000x128 .f32 :=
  View.canon [⟨rBlock, k0_pay1 (View.ld a rBlock) (View.ld h rBlock) (View.ld wl rWeight) (View.ld wr rWeight) (View.ld b rBias)⟩]

/-- The one store writes the whole buffer. -/
theorem cover_out (p : Vec F S5000x128 .f32) (y : S5000x128.Idx) :
    ∃ pc ∈ ([⟨rBlock, p⟩] : List (View.Piece (Elt F) S5000x128 .f32)), y ∈ pc.1.set :=
  View.cover_of_tiled [⟨rBlock, p⟩] S5000x128.size (by rfl) y

/-! ## The body's triple -/

set_option maxHeartbeats 1000000 in
/-- The body on whole staging buffers, the inputs' at read contents and the output's at anything, runs to the
    continuation with the inputs' buffers as they were and the output's at `outBlock` of the inputs. -/
theorem sound_kernel (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (a h : Vec F S5000x128 .f32) (wl : Vec F S128x128 .f32) (b : Vec F S1x128 .f32) (wr : Vec F S128x128 .f32) (K : PUnit → sProp 𝕄) :
    iprop(owns (c : Thread nD τ) arg1 fullShare a ∗ owns (c : Thread nD τ) arg2 fullShare h ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare h ∗ owns (c : Thread nD τ) arg3 fullShare wl
            ∗ owns (c : Thread nD τ) arg4 fullShare b ∗ owns (c : Thread nD τ) arg5 fullShare wr
            ∗ owns (c : Thread nD τ) arg6 fullShare (outBlock a h wl b wr)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the input blocks; the invariant holds only what the
    body does not touch; nothing is owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = outBlock (iblk V c 0 t) (iblk V c 1 t) (iblk V c 2 t) (iblk V c 3 t) (iblk V c 4 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the body's triple applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.Region1.lean ====
/-
  Region 1 of the program, at a parameter `V`: the contents of the core's buffers when the region is entered.
  The region is one pallas_call on a grid of ten points. Each point reads a 5000×128 block of the aggregated
  neighbour features (window 0) and of the node features (window 1), the whole 128×128 neighbour weight (window 2),
  the 1×128 bias (window 3) and the whole 128×128 root weight (window 4), and writes one 5000×128 block of the
  layer's output (window 5): the two matrix products added, then the bias row added to every row.
  Stated here: each window's block at a point as a read of the array the region finds; that every input's staging
  buffer holds that block whenever the body runs (also for the three windows whose block never moves and is
  fetched once); what the body leaves in the output's buffer as one function of the five input blocks; the body's
  triple; the proof data of the pipeline; and the body obligation at every point.
-/
import proofs.«107073_j33998961116076_1_alg».proof.Proof.Gen.Kernel.Launch
import proofs.«107073_j33998961116076_1_alg».proof.Proof.Gen.Kernel.Skeleton
import proofs.«107073_j33998961116076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the index map picks, read off the array as the
    region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block whenever the body runs, fetched at that point or not: where it is
    not fetched the block index has not moved, and the body leaves an input's buffer as it found it. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body runs, fetched at that point or not: where it is
    not fetched the block index has not moved, and the body leaves an input's buffer as it found it. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body runs, fetched at that point or not: where it is
    not fetched the block index has not moved, and the body leaves an input's buffer as it found it. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body runs, fetched at that point or not: where it is
    not fetched the block index has not moved, and the body leaves an input's buffer as it found it. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body runs, fetched at that point or not: where it is
    not fetched the block index has not moved, and the body leaves an input's buffer as it found it. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rBlock : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the output window's buffer -/

/-- The output buffer after the body, from the five input blocks: its one store, of the layer's combination of them. -/
def outBlock (a h : Vec F S5000x128 .f32) (wl : Vec F S128x128 .f32) (b : Vec F S1x128 .f32) (wr : Vec F S128x128 .f32) : Vec F S5000x128 .f32 :=
  View.canon [⟨rBlock, k1_pay1 (View.ld a rBlock) (View.ld h rBlock) (View.ld wl rWeight) (View.ld wr rWeight) (View.ld b rBias)⟩]

/-- The one store writes the whole buffer. -/
theorem cover_out (p : Vec F S5000x128 .f32) (y : S5000x128.Idx) :
    ∃ pc ∈ ([⟨rBlock, p⟩] : List (View.Piece (Elt F) S5000x128 .f32)), y ∈ pc.1.set :=
  View.cover_of_tiled [⟨rBlock, p⟩] S5000x128.size (by rfl) y

/-! ## The body's triple -/

set_option maxHeartbeats 1000000 in
/-- The body on whole staging buffers, the inputs' at read contents and the output's at anything, runs to the
    continuation with the inputs' buffers as they were and the output's at `outBlock` of the inputs. -/
theorem sound_kernel (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (a h : Vec F S5000x128 .f32) (wl : Vec F S128x128 .f32) (b : Vec F S1x128 .f32) (wr : Vec F S128x128 .f32) (K : PUnit → sProp 𝕄) :
    iprop(owns (c : Thread nD τ) arg1 fullShare a ∗ owns (c : Thread nD τ) arg2 fullShare h ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare h ∗ owns (c : Thread nD τ) arg3 fullShare wl
            ∗ owns (c : Thread nD τ) arg4 fullShare b ∗ owns (c : Thread nD τ) arg5 fullShare wr
            ∗ owns (c : Thread nD τ) arg6 fullShare (outBlock a h wl b wr)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the input blocks; the invariant holds only what the
    body does not touch; nothing is owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) :
    (dat V c).after 5 t = outBlock (iblk V c 0 t) (iblk V c 1 t) (iblk V c 2 t) (iblk V c 3 t) (iblk V c 4 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so the body's triple applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.K.Region2.lean ====
/-
  Region 2 of the program, at a parameter `V`: the contents of the core's buffers when the region is entered.
  The region is one pallas_call on a grid of ten points. Each point reads a 5000×128 block of the aggregated
  neighbour features (window 0) and of the node features (window 1), the whole 128×128 neighbour weight (window 2),
  the 1×128 bias (window 3) and the whole 128×128 root weight (window 4), and writes one 5000×128 block of the
  layer's output (window 5): the two matrix products added, then the bias row added to every row.
  Stated here: each window's block at a point as a read of the array the region finds; that every input's staging
  buffer holds that block whenever the body runs (also for the three windows whose block never moves and is
  fetched once); what the body leaves in the output's buffer as one function of the five input blocks; the body's
  triple; the proof data of the pipeline; and the body obligation at every point.
-/
import proofs.«107073_j33998961116076_1_alg».proof.Proof.Gen.Kernel.Launch
import proofs.«107073_j33998961116076_1_alg».proof.Proof.Gen.Kernel.Skeleton
import proofs.«107073_j33998961116076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the index map picks, read off the array as the
    region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block whenever the body runs, fetched at that point or not: where it is
    not fetched the block index has not moved, and the body leaves an input's buffer as it found it. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body runs, fetched at that point or not: where it is
    not fetched the block index has not moved, and the body leaves an input's buffer as it found it. -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body runs, fetched at that point or not: where it is
    not fetched the block index has not moved, and the body leaves an input's buffer as it found it. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body runs, fetched at that point or not: where it is
    not fetched the block index has not moved, and the body leaves an input's buffer as it found it. -/
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body runs, fetched at that point or not: where it is
    not fetched the block index has not moved, and the body leaves an input's buffer as it found it. -/
theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rBlock : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the output window's buffer -/

/-- The output buffer after the body, from the five input blocks: its one store, of the layer's combination of them. -/
def outBlock (a h : Vec F S5000x128 .f32) (wl : Vec F S128x128 .f32) (b : Vec F S1x128 .f32) (wr : Vec F S128x128 .f32) : Vec F S5000x128 .f32 :=
  View.canon [⟨rBlock, k2_pay1 (View.ld a rBlock) (View.ld h rBlock) (View.ld wl rWeight) (View.ld wr rWeight) (View.ld b rBias)⟩]

/-- The one store writes the whole buffer. -/
theorem cover_out (p : Vec F S5000x128 .f32) (y : S5000x128.Idx) :
    ∃ pc ∈ ([⟨rBlock, p⟩] : List (View.Piece (Elt F) S5000x128 .f32)), y ∈ pc.1.set :=
  View.cover_of_tiled [⟨rBlock, p⟩] S5000x128.size (by rfl) y

/-! ## The body's triple -/

set_option maxHeartbeats 1000000 in
/-- The body on whole staging buffers, the inputs' at read contents and the output's at anything, runs to the
    continuation with the inputs' buffers as they were and the output's at `outBlock` of the inputs. -/
theorem sound_kernel (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (a h : Vec F S5000x128 .f32) (wl : Vec F S128x128 .f32) (b : Vec F S1x128 .f32) (wr : Vec F S128x128 .f32) (K : PUnit → sProp 𝕄) :
    iprop(owns (c : Thread nD τ) arg1 fullShare a ∗ owns (c : Thread nD τ) arg2 fullShare h ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare h ∗ owns (c : Thread nD τ) arg3 fullShare wl
            ∗ owns (c : Thread nD τ) arg4 fullShare b ∗ owns (c : Thread nD τ) arg5 fullShare wr
            ∗ owns (c : Thread nD τ) arg6 fullShare (outBlock a h wl b wr)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the input blocks; the invariant holds only what the
    body does not touch; nothing is owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) :
    (dat V c).after 5 t = outBlock (iblk V c 0 t) (iblk V c 1 t) (iblk V c 2 t) (iblk V c 3 t) (iblk V c 4 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' buffers hold their blocks, so the body's triple applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.K.Run.lean ====
/-
  The run of the whole program: @main is eleven items in order — three stretches of host operations, the first layer's
  pallas_call, two stretches, the second layer's, two stretches, the third layer's, and a last stretch that stacks the
  three layers' outputs. The contents of the core's buffers at each boundary are a fold from the launch memory: a host
  stretch applies its operations, a region puts its arrays at what its pipeline's write-backs leave. Each region is a
  segment over that state, its proof data taken at the contents it is entered with; the launch theorem for a list of
  segments then says that every weakly fair execution terminates, faults nowhere, and ends with every unscoped buffer
  at the last valuation of the fold. The six argument arrays are read back through the fold to the launch memory.
-/
import proofs.«107073_j33998961116076_1_alg».proof.Proof.K.Region0
import proofs.«107073_j33998961116076_1_alg».proof.Proof.K.Region1
import proofs.«107073_j33998961116076_1_alg».proof.Proof.K.Region2
import proofs.«107073_j33998961116076_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the degree count and its reciprocal. -/
abbrev W1 : Dev nD → Valuation τ sig (Elt F) := fun c => StableHlo.after hostOps0 (W0 m ρ c)
/-- After the selection of the reciprocal where the degree is positive. -/
abbrev W2 : Dev nD → Valuation τ sig (Elt F) := fun c => StableHlo.after hostOps0_1 (W1 m ρ c)
/-- After the first layer's gather, scatter-add, scaling and weight slices: the first region's entry. -/
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b

/-- At region 0's exit: its six arrays at what the pipeline leaves (an input as entered, the output with every point's
    write-back folded in), every other buffer as entered. -/
def W4 (c : Dev nD) : Valuation τ sig (Elt F) :=
  Pipeline.withArrays spec0 c (W3 m ρ c) fun w => (R0.dat (U3 m ρ) c).arrAt w cfg0.N
theorem W4_arr (c : Dev nD) (w : Fin cfg0.W) :
    W4 m ρ c (Proc.devRef .tc (Pipeline.arrRef spec0 w)) = (R0.dat (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev U4 : (c : Dev nD) → (b : Ref sig .tc) → Buf (Elt F) ((c : Thread nD τ).loc b) := fun c b => W4 m ρ c b
theorem hF0 (c : Dev nD) (w : Fin cfg0.W) : (R0.dat (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the first layer's rectification. -/
abbrev W5 : Dev nD → Valuation τ sig (Elt F) := fun c => StableHlo.after hostOps1 (W4 m ρ c)
/-- After the second layer's gather, scatter-add, scaling and weight slices: the second region's entry. -/
abbrev W6 : Dev nD → Valuation τ sig (Elt F) := fun c => StableHlo.after hostOps1_1 (W5 m ρ c)
abbrev U6 : (c : Dev nD) → (b : Ref sig .tc) → Buf (Elt F) ((c : Thread nD τ).loc b) := fun c b => W6 m ρ c b

/-- At region 1's exit: its six arrays at what the pipeline leaves (an input as entered, the output with every point's
    write-back folded in), every other buffer as entered. -/
def W7 (c : Dev nD) : Valuation τ sig (Elt F) :=
  Pipeline.withArrays spec1 c (W6 m ρ c) fun w => (R1.dat (U6 m ρ) c).arrAt w cfg1.N
theorem W7_arr (c : Dev nD) (w : Fin cfg1.W) :
    W7 m ρ c (Proc.devRef .tc (Pipeline.arrRef spec1 w)) = (R1.dat (U6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev U7 : (c : Dev nD) → (b : Ref sig .tc) → Buf (Elt F) ((c : Thread nD τ).loc b) := fun c b => W7 m ρ c b
theorem hF1 (c : Dev nD) (w : Fin cfg1.W) : (R1.dat (U6 m ρ) c).arrAt w cfg1.N = U7 m ρ c (Pipeline.arrRef spec1 w) :=
  (W7_arr m ρ c w).symm
theorem hrest1 (c : Dev nD) : ∀ b, b ∉ Finset.univ.image (Pipeline.arrRef spec1) → U7 m ρ c b = U6 m ρ c b :=
  fun b hb => W7_of_ne m ρ c b fun w e => hb (Finset.mem_image.mpr ⟨w, Finset.mem_univ _, e⟩)

/-- After the second layer's rectification. -/
abbrev W8 : Dev nD → Valuation τ sig (Elt F) := fun c => StableHlo.after hostOps2 (W7 m ρ c)
/-- After the third layer's gather, scatter-add, scaling and weight slices: the third region's entry. -/
abbrev W9 : Dev nD → Valuation τ sig (Elt F) := fun c => StableHlo.after hostOps2_1 (W8 m ρ c)
abbrev U9 : (c : Dev nD) → (b : Ref sig .tc) → Buf (Elt F) ((c : Thread nD τ).loc b) := fun c b => W9 m ρ c b

/-- At region 2's exit: its six arrays at what the pipeline leaves (an input as entered, the output with every point's
    write-back folded in), every other buffer as entered. -/
def W10 (c : Dev nD) : Valuation τ sig (Elt F) :=
  Pipeline.withArrays spec2 c (W9 m ρ c) fun w => (R2.dat (U9 m ρ) c).arrAt w cfg2.N
theorem W10_arr (c : Dev nD) (w : Fin cfg2.W) :
    W10 m ρ c (Proc.devRef .tc (Pipeline.arrRef spec2 w)) = (R2.dat (U9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev U10 : (c : Dev nD) → (b : Ref sig .tc) → Buf (Elt F) ((c : Thread nD τ).loc b) := fun c b => W10 m ρ c b
theorem hF2 (c : Dev nD) (w : Fin cfg2.W) : (R2.dat (U9 m ρ) c).arrAt w cfg2.N = U10 m ρ c (Pipeline.arrRef spec2 w) :=
  (W10_arr m ρ c w).symm
theorem hrest2 (c : Dev nD) : ∀ b, b ∉ Finset.univ.image (Pipeline.arrRef spec2) → U10 m ρ c b = U9 m ρ c b :=
  fun b hb => W10_of_ne m ρ c b fun w e => hb (Finset.mem_image.mpr ⟨w, Finset.mem_univ _, e⟩)

/-- After the three outputs are stacked: the last valuation. -/
abbrev W11 : Dev nD → Valuation τ sig (Elt F) := fun c => StableHlo.after hostOps3 (W10 m ρ c)

/-! ## The arguments end as launched -/

/-- `main_arg0` ends as launched: no host stretch writes it, and a region only reads it or passes it by. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_writes_sub hostOps3 _ hostOps3_writes (by decide)
    _ = W9 m ρ c (Proc.devRef .tc main_arg0) := W10_of_ne m ρ c main_arg0 (by decide)
    _ = W8 m ρ c (Proc.devRef .tc main_arg0) := StableHlo.after_of_writes_sub hostOps2_1 _ hostOps2_1_writes (by decide)
    _ = W7 m ρ c (Proc.devRef .tc main_arg0) := StableHlo.after_of_writes_sub hostOps2 _ hostOps2_writes (by decide)
    _ = W6 m ρ c (Proc.devRef .tc main_arg0) := W7_of_ne m ρ c main_arg0 (by decide)
    _ = W5 m ρ c (Proc.devRef .tc main_arg0) := StableHlo.after_of_writes_sub hostOps1_1 _ hostOps1_1_writes (by decide)
    _ = W4 m ρ c (Proc.devRef .tc main_arg0) := StableHlo.after_of_writes_sub hostOps1 _ hostOps1_writes (by decide)
    _ = W3 m ρ c (Proc.devRef .tc main_arg0) := (W4_arr m ρ c 1).trans (((R0.dat (U3 m ρ) c).arrAt_in 1 rfl _).trans (R0.A_eq (U3 m ρ) c 1))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- `main_arg1` ends as launched: no host stretch writes it, and a region only reads it or passes it by. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_writes_sub hostOps3 _ hostOps3_writes (by decide)
    _ = W9 m ρ c (Proc.devRef .tc main_arg1) := W10_of_ne m ρ c main_arg1 (by decide)
    _ = W8 m ρ c (Proc.devRef .tc main_arg1) := StableHlo.after_of_writes_sub hostOps2_1 _ hostOps2_1_writes (by decide)
    _ = W7 m ρ c (Proc.devRef .tc main_arg1) := StableHlo.after_of_writes_sub hostOps2 _ hostOps2_writes (by decide)
    _ = W6 m ρ c (Proc.devRef .tc main_arg1) := W7_of_ne m ρ c main_arg1 (by decide)
    _ = W5 m ρ c (Proc.devRef .tc main_arg1) := StableHlo.after_of_writes_sub hostOps1_1 _ hostOps1_1_writes (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- `main_arg2` ends as launched: no host stretch writes it, and a region only reads it or passes it by. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_writes_sub hostOps3 _ hostOps3_writes (by decide)
    _ = W9 m ρ c (Proc.devRef .tc main_arg2) := W10_of_ne m ρ c main_arg2 (by decide)
    _ = W8 m ρ c (Proc.devRef .tc main_arg2) := StableHlo.after_of_writes_sub hostOps2_1 _ hostOps2_1_writes (by decide)
    _ = W7 m ρ c (Proc.devRef .tc main_arg2) := StableHlo.after_of_writes_sub hostOps2 _ hostOps2_writes (by decide)
    _ = W6 m ρ c (Proc.devRef .tc main_arg2) := W7_of_ne m ρ c main_arg2 (by decide)
    _ = W5 m ρ c (Proc.devRef .tc main_arg2) := StableHlo.after_of_writes_sub hostOps1_1 _ hostOps1_1_writes (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- `main_arg3` ends as launched: no host stretch writes it, and a region only reads it or passes it by. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_writes_sub hostOps3 _ hostOps3_writes (by decide)
    _ = W9 m ρ c (Proc.devRef .tc main_arg3) := W10_of_ne m ρ c main_arg3 (by decide)
    _ = W8 m ρ c (Proc.devRef .tc main_arg3) := StableHlo.after_of_writes_sub hostOps2_1 _ hostOps2_1_writes (by decide)
    _ = W7 m ρ c (Proc.devRef .tc main_arg3) := StableHlo.after_of_writes_sub hostOps2 _ hostOps2_writes (by decide)
    _ = W6 m ρ c (Proc.devRef .tc main_arg3) := W7_of_ne m ρ c main_arg3 (by decide)
    _ = W5 m ρ c (Proc.devRef .tc main_arg3) := StableHlo.after_of_writes_sub hostOps1_1 _ hostOps1_1_writes (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- `main_arg4` ends as launched: no host stretch writes it, and a region only reads it or passes it by. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_writes_sub hostOps3 _ hostOps3_writes (by decide)
    _ = W9 m ρ c (Proc.devRef .tc main_arg4) := W10_of_ne m ρ c main_arg4 (by decide)
    _ = W8 m ρ c (Proc.devRef .tc main_arg4) := StableHlo.after_of_writes_sub hostOps2_1 _ hostOps2_1_writes (by decide)
    _ = W7 m ρ c (Proc.devRef .tc main_arg4) := StableHlo.after_of_writes_sub hostOps2 _ hostOps2_writes (by decide)
    _ = W6 m ρ c (Proc.devRef .tc main_arg4) := W7_of_ne m ρ c main_arg4 (by decide)
    _ = W5 m ρ c (Proc.devRef .tc main_arg4) := StableHlo.after_of_writes_sub hostOps1_1 _ hostOps1_1_writes (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- `main_arg5` ends as launched: no host stretch writes it, and a region only reads it or passes it by. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_writes_sub hostOps3 _ hostOps3_writes (by decide)
    _ = W9 m ρ c (Proc.devRef .tc main_arg5) := W10_of_ne m ρ c main_arg5 (by decide)
    _ = W8 m ρ c (Proc.devRef .tc main_arg5) := StableHlo.after_of_writes_sub hostOps2_1 _ hostOps2_1_writes (by decide)
    _ = W7 m ρ c (Proc.devRef .tc main_arg5) := StableHlo.after_of_writes_sub hostOps2 _ hostOps2_writes (by decide)
    _ = W6 m ρ c (Proc.devRef .tc main_arg5) := W7_of_ne m ρ c main_arg5 (by decide)
    _ = W5 m ρ c (Proc.devRef .tc main_arg5) := StableHlo.after_of_writes_sub hostOps1_1 _ hostOps1_1_writes (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data family and the thread state -/

/-- No pipeline has a prefetched table. -/
abbrev admT : (p : Fin 3) → (pcfgs (F := F) p).Adm := fun p => (cfgs p).toPCfg_adm
/-- Every pipeline's proof data, each at the contents its region is entered with. -/
def pd : (p : Fin 3) → (c : Dev nD) → Dat τ (Elt F) Unit ℕ (UR sig nD τ) ℕ (Pipeline.pin (pcfgs (F := F)) admT p) c
  | ⟨0, _⟩ => fun c => R0.dat (U3 m ρ) c
  | ⟨1, _⟩ => fun c => R1.dat (U6 m ρ) c
  | ⟨2, _⟩ => fun c => R2.dat (U9 m ρ) c
abbrev 𝒱n : Variants := Variants.none
/-- No core owes another anything. -/
abbrev Ln : GSem nD τ sig → Finset Unit := fun _ => ∅
abbrev lvn : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's entry and exit lemmas are stated over the pinned configuration of pipeline 0; unification meets the
-- printed one only when it may unfold plain definitions in a metavariable's type
set_option backward.isDefEq.respectTransparency.types false in
/-- Region 0 as a segment: entered with every unscoped buffer at `W3`, left with them at `W4`. Its six arrays are
    split out of the unscoped buffers at entry and put back at exit at what the pipeline's write-backs leave; the generator
    register goes into the invariant and comes back; nothing is owed; the kernel has no semaphore of its own. -/
def reg0 : Pipeline.RegionSeg (pcfgs (F := F)) admT (pd m ρ) () defs₀ 𝒱n Ln lvn 0 where
  win := launch0.win.to₀
  block_pos := launch0.block_pos
  stage_whole := launch0.stage_whole
  K := PEmpty
  osem k := k.elim
  ho := Pipeline.OwnSemFacts.none _
  hbody c := (R0.body_obligation (U3 m ρ) c).loose
  hwaits := Pipeline.hwaits_of_owed_zero _ _ _ _ Ln lvn 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) admT (pd m ρ) launch0.win launch0.arr_whole c
      ((pd m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pd m ρ) ((pd m ρ 0 c).share_full fun _ => rfl)
      (U3 m ρ c) (U4 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of pipeline 1; unification meets the
-- printed one only when it may unfold plain definitions in a metavariable's type
set_option backward.isDefEq.respectTransparency.types false in
/-- Region 1 as a segment: entered with every unscoped buffer at `W6`, left with them at `W7`. Its six arrays are
    split out of the unscoped buffers at entry and put back at exit at what the pipeline's write-backs leave; the generator
    register goes into the invariant and comes back; nothing is owed; the kernel has no semaphore of its own. -/
def reg1 : Pipeline.RegionSeg (pcfgs (F := F)) admT (pd m ρ) () defs₀ 𝒱n Ln lvn 1 where
  win := launch1.win.to₀
  block_pos := launch1.block_pos
  stage_whole := launch1.stage_whole
  K := PEmpty
  osem k := k.elim
  ho := Pipeline.OwnSemFacts.none _
  hbody c := (R1.body_obligation (U6 m ρ) c).loose
  hwaits := Pipeline.hwaits_of_owed_zero _ _ _ _ Ln lvn 1 fun _ _ => rfl
  pre c := iprop(StableHlo.held (c : Thread nD τ) (Pipeline.ucRefs τ sig) (W6 m ρ c) ∗ Rest c)
  post c := iprop(StableHlo.held (c : Thread nD τ) (Pipeline.ucRefs τ sig) (W7 m ρ c) ∗ Rest c)
  X c := iprop(∃ r, prngReg c r)
  Y c := iprop(∃ r, prngReg c r)
  Z c := Pipeline.unscopedRest (Ix := Unit) (Name := ℕ) (U := UR sig nD τ) (Lvl := ℕ) spec1 c (U6 m ρ c)
  hentry c := by
    rw [Pipeline.ownSems0_none]
    have hsplit := Pipeline.arrays_of_unscopedBufs (p := 1) (pcfgs (F := F)) admT (pd m ρ) launch1.win launch1.arr_whole c
      ((pd m ρ 1 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pd m ρ) ((pd m ρ 1 c).share_full fun _ => rfl)
      (U6 m ρ c) (U7 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of pipeline 2; unification meets the
-- printed one only when it may unfold plain definitions in a metavariable's type
set_option backward.isDefEq.respectTransparency.types false in
/-- Region 2 as a segment: entered with every unscoped buffer at `W9`, left with them at `W10`. Its six arrays are
    split out of the unscoped buffers at entry and put back at exit at what the pipeline's write-backs leave; the generator
    register goes into the invariant and comes back; nothing is owed; the kernel has no semaphore of its own. -/
def reg2 : Pipeline.RegionSeg (pcfgs (F := F)) admT (pd m ρ) () defs₀ 𝒱n Ln lvn 2 where
  win := launch2.win.to₀
  block_pos := launch2.block_pos
  stage_whole := launch2.stage_whole
  K := PEmpty
  osem k := k.elim
  ho := Pipeline.OwnSemFacts.none _
  hbody c := (R2.body_obligation (U9 m ρ) c).loose
  hwaits := Pipeline.hwaits_of_owed_zero _ _ _ _ Ln lvn 2 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec2 c (U9 m ρ c)
  hentry c := by
    rw [Pipeline.ownSems0_none]
    have hsplit := Pipeline.arrays_of_unscopedBufs (p := 2) (pcfgs (F := F)) admT (pd m ρ) launch2.win launch2.arr_whole c
      ((pd m ρ 2 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pd m ρ) ((pd m ρ 2 c).share_full fun _ => rfl)
      (U9 m ρ c) (U10 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segL : List (Pipeline.Seg (pcfgs (F := F)) admT (pd m ρ) () defs₀ 𝒱n Ln lvn) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .region (reg2 m ρ),
    .host (hseg hostOps3 hostOps3_sub hostOps3_fresh (W10 m ρ)) ]

/-- @main is the run of the segments. -/
theorem main_run (c : Dev nD) : main (F := F) c = Pipeline.Seg.run (segL m ρ) := (main_chain c).trans (by chain_rfl)

set_option backward.isDefEq.respectTransparency.types false in
/-- THE RUN: from any memory with zero counters, every weakly fair execution of @main terminates, nothing faulting, and
    every final memory holds each unscoped buffer of each core at the last valuation of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admT (pd m ρ) () cellOf_inj emb₁ defs₀ 𝒱n Ln lvn m ρ main (segL m ρ)
    (fun c Q => by rw [main_run m ρ c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c))
    (Tₙ := fun c => StableHlo.held (c : Thread nD τ) (Pipeline.ucRefs τ sig) (W11 m ρ c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => sep_mono .rfl (by iintro ⟨-, HO⟩; iexact HO)⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨Hh, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c)⟩) (run_main m ρ)

end Cert.Kernel.Fr

end
-- ==== Proof.KI.Region0.lean ====
/-
  Region 0 of the program, at a parameter `V`: the contents of the core's buffers when the region is entered.
  The region is one pallas_call on a grid of ten points. Each point reads a 5000×128 block of the aggregated
  neighbour features (window 0) and of the node features (window 1), the whole 128×128 neighbour weight (window 2),
  the 1×128 bias (window 3) and the whole 128×128 root weight (window 4), and writes one 5000×128 block of the
  layer's output (window 5): the two matrix products added, then the bias row added to every row.
  Stated here: each window's block at a point as a read of the array the region finds; that every input's staging
  buffer holds that block whenever the body runs (also for the three windows whose block never moves and is
  fetched once); what the body leaves in the output's buffer as one function of the five input blocks; the body's
  triple; the proof data of the pipeline; and the body obligation at every point.
-/
import proofs.«107073_j33998961116076_1_alg».proof.Proof.Gen.KernelIdeal.Launch
import proofs.«107073_j33998961116076_1_alg».proof.Proof.Gen.KernelIdeal.Skeleton
import proofs.«107073_j33998961116076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the index map picks, read off the array as the
    region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block whenever the body runs, fetched at that point or not: where it is
    not fetched the block index has not moved, and the body leaves an input's buffer as it found it. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body runs, fetched at that point or not: where it is
    not fetched the block index has not moved, and the body leaves an input's buffer as it found it. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body runs, fetched at that point or not: where it is
    not fetched the block index has not moved, and the body leaves an input's buffer as it found it. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body runs, fetched at that point or not: where it is
    not fetched the block index has not moved, and the body leaves an input's buffer as it found it. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body runs, fetched at that point or not: where it is
    not fetched the block index has not moved, and the body leaves an input's buffer as it found it. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rBlock : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the output window's buffer -/

/-- The output buffer after the body, from the five input blocks: its one store, of the layer's combination of them. -/
def outBlock (a h : Vec F S5000x128 .f32) (wl : Vec F S128x128 .f32) (b : Vec F S1x128 .f32) (wr : Vec F S128x128 .f32) : Vec F S5000x128 .f32 :=
  View.canon [⟨rBlock, k0_pay1 (View.ld a rBlock) (View.ld h rBlock) (View.ld wl rWeight) (View.ld wr rWeight) (View.ld b rBias)⟩]

/-- The one store writes the whole buffer. -/
theorem cover_out (p : Vec F S5000x128 .f32) (y : S5000x128.Idx) :
    ∃ pc ∈ ([⟨rBlock, p⟩] : List (View.Piece (Elt F) S5000x128 .f32)), y ∈ pc.1.set :=
  View.cover_of_tiled [⟨rBlock, p⟩] S5000x128.size (by rfl) y

/-! ## The body's triple -/

set_option maxHeartbeats 1000000 in
/-- The body on whole staging buffers, the inputs' at read contents and the output's at anything, runs to the
    continuation with the inputs' buffers as they were and the output's at `outBlock` of the inputs. -/
theorem sound_kernel (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (a h : Vec F S5000x128 .f32) (wl : Vec F S128x128 .f32) (b : Vec F S1x128 .f32) (wr : Vec F S128x128 .f32) (K : PUnit → sProp 𝕄) :
    iprop(owns (c : Thread nD τ) arg1 fullShare a ∗ owns (c : Thread nD τ) arg2 fullShare h ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare h ∗ owns (c : Thread nD τ) arg3 fullShare wl
            ∗ owns (c : Thread nD τ) arg4 fullShare b ∗ owns (c : Thread nD τ) arg5 fullShare wr
            ∗ owns (c : Thread nD τ) arg6 fullShare (outBlock a h wl b wr)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the input blocks; the invariant holds only what the
    body does not touch; nothing is owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = outBlock (iblk V c 0 t) (iblk V c 1 t) (iblk V c 2 t) (iblk V c 3 t) (iblk V c 4 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the body's triple applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.Region1.lean ====
/-
  Region 1 of the program, at a parameter `V`: the contents of the core's buffers when the region is entered.
  The region is one pallas_call on a grid of ten points. Each point reads a 5000×128 block of the aggregated
  neighbour features (window 0) and of the node features (window 1), the whole 128×128 neighbour weight (window 2),
  the 1×128 bias (window 3) and the whole 128×128 root weight (window 4), and writes one 5000×128 block of the
  layer's output (window 5): the two matrix products added, then the bias row added to every row.
  Stated here: each window's block at a point as a read of the array the region finds; that every input's staging
  buffer holds that block whenever the body runs (also for the three windows whose block never moves and is
  fetched once); what the body leaves in the output's buffer as one function of the five input blocks; the body's
  triple; the proof data of the pipeline; and the body obligation at every point.
-/
import proofs.«107073_j33998961116076_1_alg».proof.Proof.Gen.KernelIdeal.Launch
import proofs.«107073_j33998961116076_1_alg».proof.Proof.Gen.KernelIdeal.Skeleton
import proofs.«107073_j33998961116076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the index map picks, read off the array as the
    region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block whenever the body runs, fetched at that point or not: where it is
    not fetched the block index has not moved, and the body leaves an input's buffer as it found it. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body runs, fetched at that point or not: where it is
    not fetched the block index has not moved, and the body leaves an input's buffer as it found it. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body runs, fetched at that point or not: where it is
    not fetched the block index has not moved, and the body leaves an input's buffer as it found it. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body runs, fetched at that point or not: where it is
    not fetched the block index has not moved, and the body leaves an input's buffer as it found it. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body runs, fetched at that point or not: where it is
    not fetched the block index has not moved, and the body leaves an input's buffer as it found it. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rBlock : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the output window's buffer -/

/-- The output buffer after the body, from the five input blocks: its one store, of the layer's combination of them. -/
def outBlock (a h : Vec F S5000x128 .f32) (wl : Vec F S128x128 .f32) (b : Vec F S1x128 .f32) (wr : Vec F S128x128 .f32) : Vec F S5000x128 .f32 :=
  View.canon [⟨rBlock, k1_pay1 (View.ld a rBlock) (View.ld h rBlock) (View.ld wl rWeight) (View.ld wr rWeight) (View.ld b rBias)⟩]

/-- The one store writes the whole buffer. -/
theorem cover_out (p : Vec F S5000x128 .f32) (y : S5000x128.Idx) :
    ∃ pc ∈ ([⟨rBlock, p⟩] : List (View.Piece (Elt F) S5000x128 .f32)), y ∈ pc.1.set :=
  View.cover_of_tiled [⟨rBlock, p⟩] S5000x128.size (by rfl) y

/-! ## The body's triple -/

set_option maxHeartbeats 1000000 in
/-- The body on whole staging buffers, the inputs' at read contents and the output's at anything, runs to the
    continuation with the inputs' buffers as they were and the output's at `outBlock` of the inputs. -/
theorem sound_kernel (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (a h : Vec F S5000x128 .f32) (wl : Vec F S128x128 .f32) (b : Vec F S1x128 .f32) (wr : Vec F S128x128 .f32) (K : PUnit → sProp 𝕄) :
    iprop(owns (c : Thread nD τ) arg1 fullShare a ∗ owns (c : Thread nD τ) arg2 fullShare h ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare h ∗ owns (c : Thread nD τ) arg3 fullShare wl
            ∗ owns (c : Thread nD τ) arg4 fullShare b ∗ owns (c : Thread nD τ) arg5 fullShare wr
            ∗ owns (c : Thread nD τ) arg6 fullShare (outBlock a h wl b wr)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the input blocks; the invariant holds only what the
    body does not touch; nothing is owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) :
    (dat V c).after 5 t = outBlock (iblk V c 0 t) (iblk V c 1 t) (iblk V c 2 t) (iblk V c 3 t) (iblk V c 4 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so the body's triple applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.Region2.lean ====
/-
  Region 2 of the program, at a parameter `V`: the contents of the core's buffers when the region is entered.
  The region is one pallas_call on a grid of ten points. Each point reads a 5000×128 block of the aggregated
  neighbour features (window 0) and of the node features (window 1), the whole 128×128 neighbour weight (window 2),
  the 1×128 bias (window 3) and the whole 128×128 root weight (window 4), and writes one 5000×128 block of the
  layer's output (window 5): the two matrix products added, then the bias row added to every row.
  Stated here: each window's block at a point as a read of the array the region finds; that every input's staging
  buffer holds that block whenever the body runs (also for the three windows whose block never moves and is
  fetched once); what the body leaves in the output's buffer as one function of the five input blocks; the body's
  triple; the proof data of the pipeline; and the body obligation at every point.
-/
import proofs.«107073_j33998961116076_1_alg».proof.Proof.Gen.KernelIdeal.Launch
import proofs.«107073_j33998961116076_1_alg».proof.Proof.Gen.KernelIdeal.Skeleton
import proofs.«107073_j33998961116076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the index map picks, read off the array as the
    region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block whenever the body runs, fetched at that point or not: where it is
    not fetched the block index has not moved, and the body leaves an input's buffer as it found it. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block whenever the body runs, fetched at that point or not: where it is
    not fetched the block index has not moved, and the body leaves an input's buffer as it found it. -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block whenever the body runs, fetched at that point or not: where it is
    not fetched the block index has not moved, and the body leaves an input's buffer as it found it. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block whenever the body runs, fetched at that point or not: where it is
    not fetched the block index has not moved, and the body leaves an input's buffer as it found it. -/
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block whenever the body runs, fetched at that point or not: where it is
    not fetched the block index has not moved, and the body leaves an input's buffer as it found it. -/
theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rBlock : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the output window's buffer -/

/-- The output buffer after the body, from the five input blocks: its one store, of the layer's combination of them. -/
def outBlock (a h : Vec F S5000x128 .f32) (wl : Vec F S128x128 .f32) (b : Vec F S1x128 .f32) (wr : Vec F S128x128 .f32) : Vec F S5000x128 .f32 :=
  View.canon [⟨rBlock, k2_pay1 (View.ld a rBlock) (View.ld h rBlock) (View.ld wl rWeight) (View.ld wr rWeight) (View.ld b rBias)⟩]

/-- The one store writes the whole buffer. -/
theorem cover_out (p : Vec F S5000x128 .f32) (y : S5000x128.Idx) :
    ∃ pc ∈ ([⟨rBlock, p⟩] : List (View.Piece (Elt F) S5000x128 .f32)), y ∈ pc.1.set :=
  View.cover_of_tiled [⟨rBlock, p⟩] S5000x128.size (by rfl) y

/-! ## The body's triple -/

set_option maxHeartbeats 1000000 in
/-- The body on whole staging buffers, the inputs' at read contents and the output's at anything, runs to the
    continuation with the inputs' buffers as they were and the output's at `outBlock` of the inputs. -/
theorem sound_kernel (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (a h : Vec F S5000x128 .f32) (wl : Vec F S128x128 .f32) (b : Vec F S1x128 .f32) (wr : Vec F S128x128 .f32) (K : PUnit → sProp 𝕄) :
    iprop(owns (c : Thread nD τ) arg1 fullShare a ∗ owns (c : Thread nD τ) arg2 fullShare h ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare h ∗ owns (c : Thread nD τ) arg3 fullShare wl
            ∗ owns (c : Thread nD τ) arg4 fullShare b ∗ owns (c : Thread nD τ) arg5 fullShare wr
            ∗ owns (c : Thread nD τ) arg6 fullShare (outBlock a h wl b wr)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the input blocks; the invariant holds only what the
    body does not touch; nothing is owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) :
    (dat V c).after 5 t = outBlock (iblk V c 0 t) (iblk V c 1 t) (iblk V c 2 t) (iblk V c 3 t) (iblk V c 4 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' buffers hold their blocks, so the body's triple applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KI.Run.lean ====
/-
  The run of the whole program: @main is eleven items in order — three stretches of host operations, the first layer's
  pallas_call, two stretches, the second layer's, two stretches, the third layer's, and a last stretch that stacks the
  three layers' outputs. The contents of the core's buffers at each boundary are a fold from the launch memory: a host
  stretch applies its operations, a region puts its arrays at what its pipeline's write-backs leave. Each region is a
  segment over that state, its proof data taken at the contents it is entered with; the launch theorem for a list of
  segments then says that every weakly fair execution terminates, faults nowhere, and ends with every unscoped buffer
  at the last valuation of the fold. The six argument arrays are read back through the fold to the launch memory.
-/
import proofs.«107073_j33998961116076_1_alg».proof.Proof.KI.Region0
import proofs.«107073_j33998961116076_1_alg».proof.Proof.KI.Region1
import proofs.«107073_j33998961116076_1_alg».proof.Proof.KI.Region2
import proofs.«107073_j33998961116076_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the degree count and its reciprocal. -/
abbrev W1 : Dev nD → Valuation τ sig (Elt F) := fun c => StableHlo.after hostOps0 (W0 m ρ c)
/-- After the selection of the reciprocal where the degree is positive. -/
abbrev W2 : Dev nD → Valuation τ sig (Elt F) := fun c => StableHlo.after hostOps0_1 (W1 m ρ c)
/-- After the first layer's gather, scatter-add, scaling and weight slices: the first region's entry. -/
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b

/-- At region 0's exit: its six arrays at what the pipeline leaves (an input as entered, the output with every point's
    write-back folded in), every other buffer as entered. -/
def W4 (c : Dev nD) : Valuation τ sig (Elt F) :=
  Pipeline.withArrays spec0 c (W3 m ρ c) fun w => (R0.dat (U3 m ρ) c).arrAt w cfg0.N
theorem W4_arr (c : Dev nD) (w : Fin cfg0.W) :
    W4 m ρ c (Proc.devRef .tc (Pipeline.arrRef spec0 w)) = (R0.dat (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev U4 : (c : Dev nD) → (b : Ref sig .tc) → Buf (Elt F) ((c : Thread nD τ).loc b) := fun c b => W4 m ρ c b
theorem hF0 (c : Dev nD) (w : Fin cfg0.W) : (R0.dat (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the first layer's rectification. -/
abbrev W5 : Dev nD → Valuation τ sig (Elt F) := fun c => StableHlo.after hostOps1 (W4 m ρ c)
/-- After the second layer's gather, scatter-add, scaling and weight slices: the second region's entry. -/
abbrev W6 : Dev nD → Valuation τ sig (Elt F) := fun c => StableHlo.after hostOps1_1 (W5 m ρ c)
abbrev U6 : (c : Dev nD) → (b : Ref sig .tc) → Buf (Elt F) ((c : Thread nD τ).loc b) := fun c b => W6 m ρ c b

/-- At region 1's exit: its six arrays at what the pipeline leaves (an input as entered, the output with every point's
    write-back folded in), every other buffer as entered. -/
def W7 (c : Dev nD) : Valuation τ sig (Elt F) :=
  Pipeline.withArrays spec1 c (W6 m ρ c) fun w => (R1.dat (U6 m ρ) c).arrAt w cfg1.N
theorem W7_arr (c : Dev nD) (w : Fin cfg1.W) :
    W7 m ρ c (Proc.devRef .tc (Pipeline.arrRef spec1 w)) = (R1.dat (U6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev U7 : (c : Dev nD) → (b : Ref sig .tc) → Buf (Elt F) ((c : Thread nD τ).loc b) := fun c b => W7 m ρ c b
theorem hF1 (c : Dev nD) (w : Fin cfg1.W) : (R1.dat (U6 m ρ) c).arrAt w cfg1.N = U7 m ρ c (Pipeline.arrRef spec1 w) :=
  (W7_arr m ρ c w).symm
theorem hrest1 (c : Dev nD) : ∀ b, b ∉ Finset.univ.image (Pipeline.arrRef spec1) → U7 m ρ c b = U6 m ρ c b :=
  fun b hb => W7_of_ne m ρ c b fun w e => hb (Finset.mem_image.mpr ⟨w, Finset.mem_univ _, e⟩)

/-- After the second layer's rectification. -/
abbrev W8 : Dev nD → Valuation τ sig (Elt F) := fun c => StableHlo.after hostOps2 (W7 m ρ c)
/-- After the third layer's gather, scatter-add, scaling and weight slices: the third region's entry. -/
abbrev W9 : Dev nD → Valuation τ sig (Elt F) := fun c => StableHlo.after hostOps2_1 (W8 m ρ c)
abbrev U9 : (c : Dev nD) → (b : Ref sig .tc) → Buf (Elt F) ((c : Thread nD τ).loc b) := fun c b => W9 m ρ c b

/-- At region 2's exit: its six arrays at what the pipeline leaves (an input as entered, the output with every point's
    write-back folded in), every other buffer as entered. -/
def W10 (c : Dev nD) : Valuation τ sig (Elt F) :=
  Pipeline.withArrays spec2 c (W9 m ρ c) fun w => (R2.dat (U9 m ρ) c).arrAt w cfg2.N
theorem W10_arr (c : Dev nD) (w : Fin cfg2.W) :
    W10 m ρ c (Proc.devRef .tc (Pipeline.arrRef spec2 w)) = (R2.dat (U9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev U10 : (c : Dev nD) → (b : Ref sig .tc) → Buf (Elt F) ((c : Thread nD τ).loc b) := fun c b => W10 m ρ c b
theorem hF2 (c : Dev nD) (w : Fin cfg2.W) : (R2.dat (U9 m ρ) c).arrAt w cfg2.N = U10 m ρ c (Pipeline.arrRef spec2 w) :=
  (W10_arr m ρ c w).symm
theorem hrest2 (c : Dev nD) : ∀ b, b ∉ Finset.univ.image (Pipeline.arrRef spec2) → U10 m ρ c b = U9 m ρ c b :=
  fun b hb => W10_of_ne m ρ c b fun w e => hb (Finset.mem_image.mpr ⟨w, Finset.mem_univ _, e⟩)

/-- After the three outputs are stacked: the last valuation. -/
abbrev W11 : Dev nD → Valuation τ sig (Elt F) := fun c => StableHlo.after hostOps3 (W10 m ρ c)

/-! ## The arguments end as launched -/

/-- `main_arg0` ends as launched: no host stretch writes it, and a region only reads it or passes it by. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_writes_sub hostOps3 _ hostOps3_writes (by decide)
    _ = W9 m ρ c (Proc.devRef .tc main_arg0) := W10_of_ne m ρ c main_arg0 (by decide)
    _ = W8 m ρ c (Proc.devRef .tc main_arg0) := StableHlo.after_of_writes_sub hostOps2_1 _ hostOps2_1_writes (by decide)
    _ = W7 m ρ c (Proc.devRef .tc main_arg0) := StableHlo.after_of_writes_sub hostOps2 _ hostOps2_writes (by decide)
    _ = W6 m ρ c (Proc.devRef .tc main_arg0) := W7_of_ne m ρ c main_arg0 (by decide)
    _ = W5 m ρ c (Proc.devRef .tc main_arg0) := StableHlo.after_of_writes_sub hostOps1_1 _ hostOps1_1_writes (by decide)
    _ = W4 m ρ c (Proc.devRef .tc main_arg0) := StableHlo.after_of_writes_sub hostOps1 _ hostOps1_writes (by decide)
    _ = W3 m ρ c (Proc.devRef .tc main_arg0) := (W4_arr m ρ c 1).trans (((R0.dat (U3 m ρ) c).arrAt_in 1 rfl _).trans (R0.A_eq (U3 m ρ) c 1))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- `main_arg1` ends as launched: no host stretch writes it, and a region only reads it or passes it by. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_writes_sub hostOps3 _ hostOps3_writes (by decide)
    _ = W9 m ρ c (Proc.devRef .tc main_arg1) := W10_of_ne m ρ c main_arg1 (by decide)
    _ = W8 m ρ c (Proc.devRef .tc main_arg1) := StableHlo.after_of_writes_sub hostOps2_1 _ hostOps2_1_writes (by decide)
    _ = W7 m ρ c (Proc.devRef .tc main_arg1) := StableHlo.after_of_writes_sub hostOps2 _ hostOps2_writes (by decide)
    _ = W6 m ρ c (Proc.devRef .tc main_arg1) := W7_of_ne m ρ c main_arg1 (by decide)
    _ = W5 m ρ c (Proc.devRef .tc main_arg1) := StableHlo.after_of_writes_sub hostOps1_1 _ hostOps1_1_writes (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- `main_arg2` ends as launched: no host stretch writes it, and a region only reads it or passes it by. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_writes_sub hostOps3 _ hostOps3_writes (by decide)
    _ = W9 m ρ c (Proc.devRef .tc main_arg2) := W10_of_ne m ρ c main_arg2 (by decide)
    _ = W8 m ρ c (Proc.devRef .tc main_arg2) := StableHlo.after_of_writes_sub hostOps2_1 _ hostOps2_1_writes (by decide)
    _ = W7 m ρ c (Proc.devRef .tc main_arg2) := StableHlo.after_of_writes_sub hostOps2 _ hostOps2_writes (by decide)
    _ = W6 m ρ c (Proc.devRef .tc main_arg2) := W7_of_ne m ρ c main_arg2 (by decide)
    _ = W5 m ρ c (Proc.devRef .tc main_arg2) := StableHlo.after_of_writes_sub hostOps1_1 _ hostOps1_1_writes (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- `main_arg3` ends as launched: no host stretch writes it, and a region only reads it or passes it by. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_writes_sub hostOps3 _ hostOps3_writes (by decide)
    _ = W9 m ρ c (Proc.devRef .tc main_arg3) := W10_of_ne m ρ c main_arg3 (by decide)
    _ = W8 m ρ c (Proc.devRef .tc main_arg3) := StableHlo.after_of_writes_sub hostOps2_1 _ hostOps2_1_writes (by decide)
    _ = W7 m ρ c (Proc.devRef .tc main_arg3) := StableHlo.after_of_writes_sub hostOps2 _ hostOps2_writes (by decide)
    _ = W6 m ρ c (Proc.devRef .tc main_arg3) := W7_of_ne m ρ c main_arg3 (by decide)
    _ = W5 m ρ c (Proc.devRef .tc main_arg3) := StableHlo.after_of_writes_sub hostOps1_1 _ hostOps1_1_writes (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- `main_arg4` ends as launched: no host stretch writes it, and a region only reads it or passes it by. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_writes_sub hostOps3 _ hostOps3_writes (by decide)
    _ = W9 m ρ c (Proc.devRef .tc main_arg4) := W10_of_ne m ρ c main_arg4 (by decide)
    _ = W8 m ρ c (Proc.devRef .tc main_arg4) := StableHlo.after_of_writes_sub hostOps2_1 _ hostOps2_1_writes (by decide)
    _ = W7 m ρ c (Proc.devRef .tc main_arg4) := StableHlo.after_of_writes_sub hostOps2 _ hostOps2_writes (by decide)
    _ = W6 m ρ c (Proc.devRef .tc main_arg4) := W7_of_ne m ρ c main_arg4 (by decide)
    _ = W5 m ρ c (Proc.devRef .tc main_arg4) := StableHlo.after_of_writes_sub hostOps1_1 _ hostOps1_1_writes (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- `main_arg5` ends as launched: no host stretch writes it, and a region only reads it or passes it by. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_writes_sub hostOps3 _ hostOps3_writes (by decide)
    _ = W9 m ρ c (Proc.devRef .tc main_arg5) := W10_of_ne m ρ c main_arg5 (by decide)
    _ = W8 m ρ c (Proc.devRef .tc main_arg5) := StableHlo.after_of_writes_sub hostOps2_1 _ hostOps2_1_writes (by decide)
    _ = W7 m ρ c (Proc.devRef .tc main_arg5) := StableHlo.after_of_writes_sub hostOps2 _ hostOps2_writes (by decide)
    _ = W6 m ρ c (Proc.devRef .tc main_arg5) := W7_of_ne m ρ c main_arg5 (by decide)
    _ = W5 m ρ c (Proc.devRef .tc main_arg5) := StableHlo.after_of_writes_sub hostOps1_1 _ hostOps1_1_writes (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data family and the thread state -/

/-- No pipeline has a prefetched table. -/
abbrev admT : (p : Fin 3) → (pcfgs (F := F) p).Adm := fun p => (cfgs p).toPCfg_adm
/-- Every pipeline's proof data, each at the contents its region is entered with. -/
def pd : (p : Fin 3) → (c : Dev nD) → Dat τ (Elt F) Unit ℕ (UR sig nD τ) ℕ (Pipeline.pin (pcfgs (F := F)) admT p) c
  | ⟨0, _⟩ => fun c => R0.dat (U3 m ρ) c
  | ⟨1, _⟩ => fun c => R1.dat (U6 m ρ) c
  | ⟨2, _⟩ => fun c => R2.dat (U9 m ρ) c
abbrev 𝒱n : Variants := Variants.none
/-- No core owes another anything. -/
abbrev Ln : GSem nD τ sig → Finset Unit := fun _ => ∅
abbrev lvn : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's entry and exit lemmas are stated over the pinned configuration of pipeline 0; unification meets the
-- printed one only when it may unfold plain definitions in a metavariable's type
set_option backward.isDefEq.respectTransparency.types false in
/-- Region 0 as a segment: entered with every unscoped buffer at `W3`, left with them at `W4`. Its six arrays are
    split out of the unscoped buffers at entry and put back at exit at what the pipeline's write-backs leave; the generator
    register goes into the invariant and comes back; nothing is owed; the kernel has no semaphore of its own. -/
def reg0 : Pipeline.RegionSeg (pcfgs (F := F)) admT (pd m ρ) () defs₀ 𝒱n Ln lvn 0 where
  win := launch0.win.to₀
  block_pos := launch0.block_pos
  stage_whole := launch0.stage_whole
  K := PEmpty
  osem k := k.elim
  ho := Pipeline.OwnSemFacts.none _
  hbody c := (R0.body_obligation (U3 m ρ) c).loose
  hwaits := Pipeline.hwaits_of_owed_zero _ _ _ _ Ln lvn 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) admT (pd m ρ) launch0.win launch0.arr_whole c
      ((pd m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pd m ρ) ((pd m ρ 0 c).share_full fun _ => rfl)
      (U3 m ρ c) (U4 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of pipeline 1; unification meets the
-- printed one only when it may unfold plain definitions in a metavariable's type
set_option backward.isDefEq.respectTransparency.types false in
/-- Region 1 as a segment: entered with every unscoped buffer at `W6`, left with them at `W7`. Its six arrays are
    split out of the unscoped buffers at entry and put back at exit at what the pipeline's write-backs leave; the generator
    register goes into the invariant and comes back; nothing is owed; the kernel has no semaphore of its own. -/
def reg1 : Pipeline.RegionSeg (pcfgs (F := F)) admT (pd m ρ) () defs₀ 𝒱n Ln lvn 1 where
  win := launch1.win.to₀
  block_pos := launch1.block_pos
  stage_whole := launch1.stage_whole
  K := PEmpty
  osem k := k.elim
  ho := Pipeline.OwnSemFacts.none _
  hbody c := (R1.body_obligation (U6 m ρ) c).loose
  hwaits := Pipeline.hwaits_of_owed_zero _ _ _ _ Ln lvn 1 fun _ _ => rfl
  pre c := iprop(StableHlo.held (c : Thread nD τ) (Pipeline.ucRefs τ sig) (W6 m ρ c) ∗ Rest c)
  post c := iprop(StableHlo.held (c : Thread nD τ) (Pipeline.ucRefs τ sig) (W7 m ρ c) ∗ Rest c)
  X c := iprop(∃ r, prngReg c r)
  Y c := iprop(∃ r, prngReg c r)
  Z c := Pipeline.unscopedRest (Ix := Unit) (Name := ℕ) (U := UR sig nD τ) (Lvl := ℕ) spec1 c (U6 m ρ c)
  hentry c := by
    rw [Pipeline.ownSems0_none]
    have hsplit := Pipeline.arrays_of_unscopedBufs (p := 1) (pcfgs (F := F)) admT (pd m ρ) launch1.win launch1.arr_whole c
      ((pd m ρ 1 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pd m ρ) ((pd m ρ 1 c).share_full fun _ => rfl)
      (U6 m ρ c) (U7 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of pipeline 2; unification meets the
-- printed one only when it may unfold plain definitions in a metavariable's type
set_option backward.isDefEq.respectTransparency.types false in
/-- Region 2 as a segment: entered with every unscoped buffer at `W9`, left with them at `W10`. Its six arrays are
    split out of the unscoped buffers at entry and put back at exit at what the pipeline's write-backs leave; the generator
    register goes into the invariant and comes back; nothing is owed; the kernel has no semaphore of its own. -/
def reg2 : Pipeline.RegionSeg (pcfgs (F := F)) admT (pd m ρ) () defs₀ 𝒱n Ln lvn 2 where
  win := launch2.win.to₀
  block_pos := launch2.block_pos
  stage_whole := launch2.stage_whole
  K := PEmpty
  osem k := k.elim
  ho := Pipeline.OwnSemFacts.none _
  hbody c := (R2.body_obligation (U9 m ρ) c).loose
  hwaits := Pipeline.hwaits_of_owed_zero _ _ _ _ Ln lvn 2 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec2 c (U9 m ρ c)
  hentry c := by
    rw [Pipeline.ownSems0_none]
    have hsplit := Pipeline.arrays_of_unscopedBufs (p := 2) (pcfgs (F := F)) admT (pd m ρ) launch2.win launch2.arr_whole c
      ((pd m ρ 2 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pd m ρ) ((pd m ρ 2 c).share_full fun _ => rfl)
      (U9 m ρ c) (U10 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segL : List (Pipeline.Seg (pcfgs (F := F)) admT (pd m ρ) () defs₀ 𝒱n Ln lvn) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .region (reg2 m ρ),
    .host (hseg hostOps3 hostOps3_sub hostOps3_fresh (W10 m ρ)) ]

/-- @main is the run of the segments. -/
theorem main_run (c : Dev nD) : main (F := F) c = Pipeline.Seg.run (segL m ρ) := (main_chain c).trans (by chain_rfl)

set_option backward.isDefEq.respectTransparency.types false in
/-- THE RUN: from any memory with zero counters, every weakly fair execution of @main terminates, nothing faulting, and
    every final memory holds each unscoped buffer of each core at the last valuation of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admT (pd m ρ) () cellOf_inj emb₁ defs₀ 𝒱n Ln lvn m ρ main (segL m ρ)
    (fun c Q => by rw [main_run m ρ c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c))
    (Tₙ := fun c => StableHlo.held (c : Thread nD τ) (Pipeline.ucRefs τ sig) (W11 m ρ c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => sep_mono .rfl (by iintro ⟨-, HO⟩; iexact HO)⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨Hh, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c)⟩) (run_main m ρ)

end Cert.KernelIdeal.Fr

end
-- ==== Proof.PayIdx.lean ====
/- The three layers' dense step read at an index.

   Each layer's kernel body stores, per block of 5000 rows, the value
   `a · wl + h · wr + b`: two products of a 5000×128 block with a 128×128 weight, accumulated into
   zero, added, plus the 1×128 bias row broadcast over the rows. At the ideal values the narrowing to
   bf16 before each product is the identity and a shape cast to the same shape is the identity, so the
   stored value at row `p`, column `q` is

     (∑ k, a[p,k] * wl[k,q]) + (∑ k, h[p,k] * wr[k,q]) + b[0,q]

   over the extended reals. This module proves that reading for each of the three payloads. -/
import proofs.«107073_j33998961116076_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Idealize.ShloMosaic Idealize.ShloMosaic.ValueIdx Cert.KernelIdeal Cert.KernelIdeal.Gen

/-! ## The operand indices of the block-times-weight product

The product contracts axis 1 of the block with axis 0 of the weight. At output index `i` and
contraction index `c` the block is read at `(i 0, c)` and the weight at `(c, i 1)`. -/

/-- The block's row coordinate is the output's row. -/
theorem lhs_axis0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The block's column coordinate is the contraction coordinate. -/
theorem lhs_axis1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The weight's row coordinate is the contraction coordinate. -/
theorem rhs_axis0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The weight's column coordinate is the output's column. -/
theorem rhs_axis1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## A block times a weight, accumulated into zero, at an index -/

/-- The product of a 5000×128 block with a 128×128 weight, accumulated into the zero splat, read at
    row `p` and column `q`: the sum over the 128 contraction positions of the products. The sum over the
    one-axis contraction index is carried to `Fin 128` along the bijection that reads off its one
    coordinate. -/
theorem block_mul_weight_apply {φ₁ φ₂ : FTy} (x : FVec Ideal S5000x128 φ₁) (w : FVec Ideal S128x128 φ₂)
    (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The three payloads at an index -/

/-- Layer 0's stored value at row `p`, column `q`. -/
theorem k0_pay1_apply (a h : Vec Ideal S5000x128 .f32) (wl wr : Vec Ideal S128x128 .f32) (b : Vec Ideal S1x128 .f32) (p : Fin 5000) (q : Fin 128) :
    k0_pay1 (F := Ideal) a h wl wr b (ix2 p q)
      = ((∑ k : Fin 128, a (ix2 p k) * wl (ix2 k q)) + ∑ k : Fin 128, h (ix2 p k) * wr (ix2 k q)) + b (ix2 0 q) := by
  unfold k0_pay1
  simp only [shapeCast_self]
  rw [addf_apply, addf_apply, block_mul_weight_apply, block_mul_weight_apply, broadcastTo_1b_ab_apply]
  rfl

/-- Layer 1's stored value at row `p`, column `q`. -/
theorem k1_pay1_apply (a h : Vec Ideal S5000x128 .f32) (wl wr : Vec Ideal S128x128 .f32) (b : Vec Ideal S1x128 .f32) (p : Fin 5000) (q : Fin 128) :
    k1_pay1 (F := Ideal) a h wl wr b (ix2 p q)
      = ((∑ k : Fin 128, a (ix2 p k) * wl (ix2 k q)) + ∑ k : Fin 128, h (ix2 p k) * wr (ix2 k q)) + b (ix2 0 q) := by
  unfold k1_pay1
  simp only [shapeCast_self]
  rw [addf_apply, addf_apply, block_mul_weight_apply, block_mul_weight_apply, broadcastTo_1b_ab_apply]
  rfl

/-- Layer 2's stored value at row `p`, column `q`. -/
theorem k2_pay1_apply (a h : Vec Ideal S5000x128 .f32) (wl wr : Vec Ideal S128x128 .f32) (b : Vec Ideal S1x128 .f32) (p : Fin 5000) (q : Fin 128) :
    k2_pay1 (F := Ideal) a h wl wr b (ix2 p q)
      = ((∑ k : Fin 128, a (ix2 p k) * wl (ix2 k q)) + ∑ k : Fin 128, h (ix2 p k) * wr (ix2 k q)) + b (ix2 0 q) := by
  unfold k2_pay1
  simp only [shapeCast_self]
  rw [addf_apply, addf_apply, block_mul_weight_apply, block_mul_weight_apply, broadcastTo_1b_ab_apply]
  rfl

end Cert.KernelIdeal.PayIdx
-- ==== Proof.KI.Final0.lean ====
/-
  Region 0 at the ideal instance: the array its output window leaves is ONE function of the five arrays the region
  reads. At array index (r, j) it is  (∑ₖ agg(r,k)·Wl(k,j) + ∑ₖ h(r,k)·Wr(k,j)) + bias(0,j)  on the extended reals.
  Point t of the grid of ten writes rows 5000·t … 5000·t + 4999: its two row blocks are rows of the same range, the
  two weights and the bias are read whole at every point, so what the point writes back is that function read
  through the point's block; the ten blocks tile the 50000 rows, so the array ends at the function everywhere.
-/
import proofs.«107073_j33998961116076_1_alg».proof.Proof.KI.Region0
import proofs.«107073_j33998961116076_1_alg».proof.Proof.PayIdx
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's dense step as one function of the aggregated features, the node features, the two weights and the
    bias row, index by index. -/
def layerOut (A H : S50000x128.Idx → EReal) (WL : S128x128.Idx → EReal) (B : S1x128.Idx → EReal) (WR : S128x128.Idx → EReal) :
    S50000x128.Idx → EReal :=
  fun i => ((∑ k : Fin 128, A (ix2 (i 0) k) * WL (ix2 k (i 1))) + ∑ k : Fin 128, H (ix2 (i 0) k) * WR (ix2 k (i 1))) + B (ix2 0 (i 1))

/-- One entry of what a point stores is the layer's function at the entry's place in the array, when the point's two
    row blocks are rows of the arrays at that place and its weights and bias are the arrays'. -/
theorem point_eq (A H : S50000x128.Idx → EReal) (WL : S128x128.Idx → EReal) (B : S1x128.Idx → EReal) (WR : S128x128.Idx → EReal)
    (a h : Vec Ideal S5000x128 .f32) (wl : Vec Ideal S128x128 .f32) (b : Vec Ideal S1x128 .f32) (wr : Vec Ideal S128x128 .f32)
    (p : Fin 5000) (q : Fin 128) (r : Fin 50000)
    (ha : ∀ k : Fin 128, a (ix2 p k) = A (ix2 r k)) (hh : ∀ k : Fin 128, h (ix2 p k) = H (ix2 r k))
    (hwl : ∀ y, wl y = WL y) (hb : ∀ y, b y = B y) (hwr : ∀ y, wr y = WR y) :
    k0_pay1 (F := Ideal) a h wl wr b (ix2 p q) = layerOut A H WL B WR (ix2 r q) := by
  rw [Cert.KernelIdeal.PayIdx.k0_pay1_apply]
  unfold layerOut
  simp only [ha, hh, hwl, hb, hwr]

/-- The printed index maps, decided over the grid: the two row windows move with the output's, on rows t; the weights
    and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row block of window 0 at point `t`, read at row `p`, is the array's row 5000·t + p. -/
theorem read_agg (c : Dev nD) (t : Fin cfg0.N) (p : Fin 5000) (k : Fin 128) (r : Fin 50000) (hr : r.val = t.val * 5000 + p.val) :
    iblk V c 0 t (ix2 p k) = (V c main_v23 : S50000x128.Idx → EReal) (ix2 r k) := by
  obtain ⟨e0, e1, -⟩ := idx_facts t
  show (V c main_v23 : S50000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for window 1, the node features. -/
theorem read_h (c : Dev nD) (t : Fin cfg0.N) (p : Fin 5000) (k : Fin 128) (r : Fin 50000) (hr : r.val = t.val * 5000 + p.val) :
    iblk V c 1 t (ix2 p k) = (V c main_arg0 : S50000x128.Idx → EReal) (ix2 r k) := by
  obtain ⟨-, -, e0, e1, -⟩ := idx_facts t
  show (V c main_arg0 : S50000x128.Idx → EReal) (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The neighbour weight's block at any point is the whole array. -/
theorem read_wl (c : Dev nD) (t : Fin cfg0.N) (y : S128x128.Idx) :
    iblk V c 2 t y = (V c main_v25 : S128x128.Idx → EReal) y := by
  obtain ⟨-, -, -, -, e0, e1, -⟩ := idx_facts t
  show (V c main_v25 : S128x128.Idx → EReal) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block at any point is the whole array. -/
theorem read_b (c : Dev nD) (t : Fin cfg0.N) (y : S1x128.Idx) :
    iblk V c 3 t y = (V c main_v30 : S1x128.Idx → EReal) y := by
  obtain ⟨-, -, -, -, -, -, e0, e1, -⟩ := idx_facts t
  show (V c main_v30 : S1x128.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The root weight's block at any point is the whole array. -/
theorem read_wr (c : Dev nD) (t : Fin cfg0.N) (y : S128x128.Idx) :
    iblk V c 4 t y = (V c main_v29 : S128x128.Idx → EReal) y := by
  obtain ⟨-, -, -, -, -, -, -, -, e0, e1, -⟩ := idx_facts t
  show (V c main_v29 : S128x128.Idx → EReal) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The layer's function of the arrays as the region finds them. -/
abbrev G (c : Dev nD) : S50000x128.Idx → EReal :=
  layerOut (V c main_v23) (V c main_arg0) (V c main_v25) (V c main_v30) (V c main_v29)

/-- WHAT POINT `t` WRITES BACK is block `t` of the layer's function of the arrays. -/
theorem flushed_eq (c : Dev nD) (t : Fin cfg0.N) :
    (dat V c).flushed 5 t = ((cfg0.win 5).blk t).view.read (Elt Ideal) (G V c) := by
  show (cfg0.win 5).cut (grid0.coords t) ((dat V c).after 5 t) = _
  rw [after5]
  unfold outBlock
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht : t.val < 10 := lt_of_lt_of_eq t.isLt N_0
  have hemb : ((cfg0.win 5).blk t).view.emb (ix2 p q) = ix2 (⟨t.val * 5000 + p.val, by have := p.isLt; omega⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk V c 0 t) (iblk V c 1 t) (iblk V c 2 t) (iblk V c 4 t) (iblk V c 3 t) (ix2 p q)
    = G V c (((cfg0.win 5).blk t).view.emb (ix2 p q))
  rw [hemb]
  exact point_eq (V c main_v23) (V c main_arg0) (V c main_v25) (V c main_v30) (V c main_v29) (iblk V c 0 t) (iblk V c 1 t) (iblk V c 2 t) (iblk V c 3 t) (iblk V c 4 t)
    p q _ (fun k => read_agg V c t p k _ rfl) (fun k => read_h V c t p k _ rfl) (read_wl V c t) (read_b V c t) (read_wr V c t)

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- Every index of the array is in some point's block: row r is in the block of point r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by show _ < grid0.N; rw [N_0]; omega⟩
  obtain ⟨-, -, -, -, -, -, -, -, -, -, e0, e1⟩ := idx_facts t
  have e0' : win0_5.index t (0 : Fin 2) = (i 0).val / 5000 := e0
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the layer's function of the arrays the region found. -/
theorem final (c : Dev nD) : (dat V c).arrAt 5 cfg0.N = G V c :=
  (dat V c).arrAt_eq_of_cover 5 (G V c) (fun t _ => flushed_eq V c t) cover

end Cert.KernelIdeal.R0

end
-- ==== Proof.KI.Final1.lean ====
/-
  Region 1 at the ideal instance: the array its output window leaves is ONE function of the five arrays the region
  reads. At array index (r, j) it is  (∑ₖ agg(r,k)·Wl(k,j) + ∑ₖ h(r,k)·Wr(k,j)) + bias(0,j)  on the extended reals.
  Point t of the grid of ten writes rows 5000·t … 5000·t + 4999: its two row blocks are rows of the same range, the
  two weights and the bias are read whole at every point, so what the point writes back is that function read
  through the point's block; the ten blocks tile the 50000 rows, so the array ends at the function everywhere.
-/
import proofs.«107073_j33998961116076_1_alg».proof.Proof.KI.Region1
import proofs.«107073_j33998961116076_1_alg».proof.Proof.PayIdx
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's dense step as one function of the aggregated features, the node features, the two weights and the
    bias row, index by index. -/
def layerOut (A H : S50000x128.Idx → EReal) (WL : S128x128.Idx → EReal) (B : S1x128.Idx → EReal) (WR : S128x128.Idx → EReal) :
    S50000x128.Idx → EReal :=
  fun i => ((∑ k : Fin 128, A (ix2 (i 0) k) * WL (ix2 k (i 1))) + ∑ k : Fin 128, H (ix2 (i 0) k) * WR (ix2 k (i 1))) + B (ix2 0 (i 1))

/-- One entry of what a point stores is the layer's function at the entry's place in the array, when the point's two
    row blocks are rows of the arrays at that place and its weights and bias are the arrays'. -/
theorem point_eq (A H : S50000x128.Idx → EReal) (WL : S128x128.Idx → EReal) (B : S1x128.Idx → EReal) (WR : S128x128.Idx → EReal)
    (a h : Vec Ideal S5000x128 .f32) (wl : Vec Ideal S128x128 .f32) (b : Vec Ideal S1x128 .f32) (wr : Vec Ideal S128x128 .f32)
    (p : Fin 5000) (q : Fin 128) (r : Fin 50000)
    (ha : ∀ k : Fin 128, a (ix2 p k) = A (ix2 r k)) (hh : ∀ k : Fin 128, h (ix2 p k) = H (ix2 r k))
    (hwl : ∀ y, wl y = WL y) (hb : ∀ y, b y = B y) (hwr : ∀ y, wr y = WR y) :
    k1_pay1 (F := Ideal) a h wl wr b (ix2 p q) = layerOut A H WL B WR (ix2 r q) := by
  rw [Cert.KernelIdeal.PayIdx.k1_pay1_apply]
  unfold layerOut
  simp only [ha, hh, hwl, hb, hwr]

/-- The printed index maps, decided over the grid: the two row windows move with the output's, on rows t; the weights
    and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row block of window 0 at point `t`, read at row `p`, is the array's row 5000·t + p. -/
theorem read_agg (c : Dev nD) (t : Fin cfg1.N) (p : Fin 5000) (k : Fin 128) (r : Fin 50000) (hr : r.val = t.val * 5000 + p.val) :
    iblk V c 0 t (ix2 p k) = (V c main_v44 : S50000x128.Idx → EReal) (ix2 r k) := by
  obtain ⟨e0, e1, -⟩ := idx_facts t
  show (V c main_v44 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for window 1, the node features. -/
theorem read_h (c : Dev nD) (t : Fin cfg1.N) (p : Fin 5000) (k : Fin 128) (r : Fin 50000) (hr : r.val = t.val * 5000 + p.val) :
    iblk V c 1 t (ix2 p k) = (V c main_v32 : S50000x128.Idx → EReal) (ix2 r k) := by
  obtain ⟨-, -, e0, e1, -⟩ := idx_facts t
  show (V c main_v32 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The neighbour weight's block at any point is the whole array. -/
theorem read_wl (c : Dev nD) (t : Fin cfg1.N) (y : S128x128.Idx) :
    iblk V c 2 t y = (V c main_v46 : S128x128.Idx → EReal) y := by
  obtain ⟨-, -, -, -, e0, e1, -⟩ := idx_facts t
  show (V c main_v46 : S128x128.Idx → EReal) (((cfg1.win 2).blk t).view.emb y) = _
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block at any point is the whole array. -/
theorem read_b (c : Dev nD) (t : Fin cfg1.N) (y : S1x128.Idx) :
    iblk V c 3 t y = (V c main_v51 : S1x128.Idx → EReal) y := by
  obtain ⟨-, -, -, -, -, -, e0, e1, -⟩ := idx_facts t
  show (V c main_v51 : S1x128.Idx → EReal) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The root weight's block at any point is the whole array. -/
theorem read_wr (c : Dev nD) (t : Fin cfg1.N) (y : S128x128.Idx) :
    iblk V c 4 t y = (V c main_v50 : S128x128.Idx → EReal) y := by
  obtain ⟨-, -, -, -, -, -, -, -, e0, e1, -⟩ := idx_facts t
  show (V c main_v50 : S128x128.Idx → EReal) (((cfg1.win 4).blk t).view.emb y) = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The layer's function of the arrays as the region finds them. -/
abbrev G (c : Dev nD) : S50000x128.Idx → EReal :=
  layerOut (V c main_v44) (V c main_v32) (V c main_v46) (V c main_v51) (V c main_v50)

/-- WHAT POINT `t` WRITES BACK is block `t` of the layer's function of the arrays. -/
theorem flushed_eq (c : Dev nD) (t : Fin cfg1.N) :
    (dat V c).flushed 5 t = ((cfg1.win 5).blk t).view.read (Elt Ideal) (G V c) := by
  show (cfg1.win 5).cut (grid1.coords t) ((dat V c).after 5 t) = _
  rw [after5]
  unfold outBlock
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht : t.val < 10 := lt_of_lt_of_eq t.isLt N_1
  have hemb : ((cfg1.win 5).blk t).view.emb (ix2 p q) = ix2 (⟨t.val * 5000 + p.val, by have := p.isLt; omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk V c 0 t) (iblk V c 1 t) (iblk V c 2 t) (iblk V c 4 t) (iblk V c 3 t) (ix2 p q)
    = G V c (((cfg1.win 5).blk t).view.emb (ix2 p q))
  rw [hemb]
  exact point_eq (V c main_v44) (V c main_v32) (V c main_v46) (V c main_v51) (V c main_v50) (iblk V c 0 t) (iblk V c 1 t) (iblk V c 2 t) (iblk V c 3 t) (iblk V c 4 t)
    p q _ (fun k => read_agg V c t p k _ rfl) (fun k => read_h V c t p k _ rfl) (read_wl V c t) (read_b V c t) (read_wr V c t)

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- Every index of the array is in some point's block: row r is in the block of point r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show _ < grid1.N; rw [N_1]; omega⟩
  obtain ⟨-, -, -, -, -, -, -, -, -, -, e0, e1⟩ := idx_facts t
  have e0' : win1_5.index t (0 : Fin 2) = (i 0).val / 5000 := e0
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: the layer's function of the arrays the region found. -/
theorem final (c : Dev nD) : (dat V c).arrAt 5 cfg1.N = G V c :=
  (dat V c).arrAt_eq_of_cover 5 (G V c) (fun t _ => flushed_eq V c t) cover

end Cert.KernelIdeal.R1

end
-- ==== Proof.KI.Final2.lean ====
/-
  Region 2 at the ideal instance: the array its output window leaves is ONE function of the five arrays the region
  reads. At array index (r, j) it is  (∑ₖ agg(r,k)·Wl(k,j) + ∑ₖ h(r,k)·Wr(k,j)) + bias(0,j)  on the extended reals.
  Point t of the grid of ten writes rows 5000·t … 5000·t + 4999: its two row blocks are rows of the same range, the
  two weights and the bias are read whole at every point, so what the point writes back is that function read
  through the point's block; the ten blocks tile the 50000 rows, so the array ends at the function everywhere.
-/
import proofs.«107073_j33998961116076_1_alg».proof.Proof.KI.Region2
import proofs.«107073_j33998961116076_1_alg».proof.Proof.PayIdx
import Idealize.ShloMosaic.Lib.Pipeline.Value
import Idealize.ShloMosaic.Lib.ValueIdx

set_option maxRecDepth 16384

noncomputable section

namespace Cert.KernelIdeal.R2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's dense step as one function of the aggregated features, the node features, the two weights and the
    bias row, index by index. -/
def layerOut (A H : S50000x128.Idx → EReal) (WL : S128x128.Idx → EReal) (B : S1x128.Idx → EReal) (WR : S128x128.Idx → EReal) :
    S50000x128.Idx → EReal :=
  fun i => ((∑ k : Fin 128, A (ix2 (i 0) k) * WL (ix2 k (i 1))) + ∑ k : Fin 128, H (ix2 (i 0) k) * WR (ix2 k (i 1))) + B (ix2 0 (i 1))

/-- One entry of what a point stores is the layer's function at the entry's place in the array, when the point's two
    row blocks are rows of the arrays at that place and its weights and bias are the arrays'. -/
theorem point_eq (A H : S50000x128.Idx → EReal) (WL : S128x128.Idx → EReal) (B : S1x128.Idx → EReal) (WR : S128x128.Idx → EReal)
    (a h : Vec Ideal S5000x128 .f32) (wl : Vec Ideal S128x128 .f32) (b : Vec Ideal S1x128 .f32) (wr : Vec Ideal S128x128 .f32)
    (p : Fin 5000) (q : Fin 128) (r : Fin 50000)
    (ha : ∀ k : Fin 128, a (ix2 p k) = A (ix2 r k)) (hh : ∀ k : Fin 128, h (ix2 p k) = H (ix2 r k))
    (hwl : ∀ y, wl y = WL y) (hb : ∀ y, b y = B y) (hwr : ∀ y, wr y = WR y) :
    k2_pay1 (F := Ideal) a h wl wr b (ix2 p q) = layerOut A H WL B WR (ix2 r q) := by
  rw [Cert.KernelIdeal.PayIdx.k2_pay1_apply]
  unfold layerOut
  simp only [ha, hh, hwl, hb, hwr]

/-- The printed index maps, decided over the grid: the two row windows move with the output's, on rows t; the weights
    and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row block of window 0 at point `t`, read at row `p`, is the array's row 5000·t + p. -/
theorem read_agg (c : Dev nD) (t : Fin cfg2.N) (p : Fin 5000) (k : Fin 128) (r : Fin 50000) (hr : r.val = t.val * 5000 + p.val) :
    iblk V c 0 t (ix2 p k) = (V c main_v65 : S50000x128.Idx → EReal) (ix2 r k) := by
  obtain ⟨e0, e1, -⟩ := idx_facts t
  show (V c main_v65 : S50000x128.Idx → EReal) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The same for window 1, the node features. -/
theorem read_h (c : Dev nD) (t : Fin cfg2.N) (p : Fin 5000) (k : Fin 128) (r : Fin 50000) (hr : r.val = t.val * 5000 + p.val) :
    iblk V c 1 t (ix2 p k) = (V c main_v53 : S50000x128.Idx → EReal) (ix2 r k) := by
  obtain ⟨-, -, e0, e1, -⟩ := idx_facts t
  show (V c main_v53 : S50000x128.Idx → EReal) (((cfg2.win 1).blk t).view.emb (ix2 p k)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The neighbour weight's block at any point is the whole array. -/
theorem read_wl (c : Dev nD) (t : Fin cfg2.N) (y : S128x128.Idx) :
    iblk V c 2 t y = (V c main_v67 : S128x128.Idx → EReal) y := by
  obtain ⟨-, -, -, -, e0, e1, -⟩ := idx_facts t
  show (V c main_v67 : S128x128.Idx → EReal) (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias row's block at any point is the whole array. -/
theorem read_b (c : Dev nD) (t : Fin cfg2.N) (y : S1x128.Idx) :
    iblk V c 3 t y = (V c main_v72 : S1x128.Idx → EReal) y := by
  obtain ⟨-, -, -, -, -, -, e0, e1, -⟩ := idx_facts t
  show (V c main_v72 : S1x128.Idx → EReal) (((cfg2.win 3).blk t).view.emb y) = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The root weight's block at any point is the whole array. -/
theorem read_wr (c : Dev nD) (t : Fin cfg2.N) (y : S128x128.Idx) :
    iblk V c 4 t y = (V c main_v71 : S128x128.Idx → EReal) y := by
  obtain ⟨-, -, -, -, -, -, -, -, e0, e1, -⟩ := idx_facts t
  show (V c main_v71 : S128x128.Idx → EReal) (((cfg2.win 4).blk t).view.emb y) = _
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The layer's function of the arrays as the region finds them. -/
abbrev G (c : Dev nD) : S50000x128.Idx → EReal :=
  layerOut (V c main_v65) (V c main_v53) (V c main_v67) (V c main_v72) (V c main_v71)

/-- WHAT POINT `t` WRITES BACK is block `t` of the layer's function of the arrays. -/
theorem flushed_eq (c : Dev nD) (t : Fin cfg2.N) :
    (dat V c).flushed 5 t = ((cfg2.win 5).blk t).view.read (Elt Ideal) (G V c) := by
  show (cfg2.win 5).cut (grid2.coords t) ((dat V c).after 5 t) = _
  rw [after5]
  unfold outBlock
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht : t.val < 10 := lt_of_lt_of_eq t.isLt N_2
  have hemb : ((cfg2.win 5).blk t).view.emb (ix2 p q) = ix2 (⟨t.val * 5000 + p.val, by have := p.isLt; omega⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show k2_pay1 (F := Ideal) (iblk V c 0 t) (iblk V c 1 t) (iblk V c 2 t) (iblk V c 4 t) (iblk V c 3 t) (ix2 p q)
    = G V c (((cfg2.win 5).blk t).view.emb (ix2 p q))
  rw [hemb]
  exact point_eq (V c main_v65) (V c main_v53) (V c main_v67) (V c main_v72) (V c main_v71) (iblk V c 0 t) (iblk V c 1 t) (iblk V c 2 t) (iblk V c 3 t) (iblk V c 4 t)
    p q _ (fun k => read_agg V c t p k _ rfl) (fun k => read_h V c t p k _ rfl) (read_wl V c t) (read_b V c t) (read_wr V c t)

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v73).slice (win2_5.rect t)).set ↔ _
  rw [View.set_slice_whole, Rect.mem_set_unit]
  exact Iff.rfl

/-- Every index of the array is in some point's block: row r is in the block of point r / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 5000, by show _ < grid2.N; rw [N_2]; omega⟩
  obtain ⟨-, -, -, -, -, -, -, -, -, -, e0, e1⟩ := idx_facts t
  have e0' : win2_5.index t (0 : Fin 2) = (i 0).val / 5000 := e0
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after the region: the layer's function of the arrays the region found. -/
theorem final (c : Dev nD) : (dat V c).arrAt 5 cfg2.N = G V c :=
  (dat V c).arrAt_eq_of_cover 5 (G V c) (fun t _ => flushed_eq V c t) cover

end Cert.KernelIdeal.R2

end
-- ==== Proof.RefLayer.lean ====
import proofs.«107073_j33998961116076_1_alg».proof.Proof.RefRead
import Idealize.ShloMosaic.Lib.ValueIdx

/-! The three layer outputs of the reference, each read at one index.

A layer computes  out = (agg · Wl + bias) + h · Wr,  where agg is the aggregated neighbourhood feature, h the layer's
input feature, Wl and Wr the layer's two 128 × 128 weight slices and bias its bias row, broadcast along the rows.
Read at the index (p, q) this is

  out (p, q) = (∑ k, agg (p, k) * Wl (k, q)  +  ∑ k, h (p, k) * Wr (k, q))  +  bias q,

the two contractions each a sum over the 128 shared coordinates, and the bias term moved to the end, which is the
commutativity and associativity of addition on the extended reals: no finiteness of any term is needed. -/

noncomputable section

namespace Cert.ReferenceIdeal.RefLayer

open Idealize.ShloMosaic Idealize.ShloMosaic.ValueIdx Cert.ReferenceIdeal Cert.ReferenceIdeal.ReadP

/-! ## The first layer: where its operations read their operands -/

/-- Row p, column q of the aggregated product reads the left factor at (p, k). -/
theorem lidx_v26 (p : Fin 50000) (q k : Fin 128) : lidx_main_v26 (ix2 p q) k = ix2 p k :=
  funext fun a => Fin.ext (by match a with | ⟨0, _⟩ => rfl | ⟨1, _⟩ => rfl)
/-- Row p, column q of the aggregated product reads the right factor at (k, q). -/
theorem ridx_v26 (p : Fin 50000) (q k : Fin 128) : ridx_main_v26 (ix2 p q) k = ix2 k q :=
  funext fun a => Fin.ext (by match a with | ⟨0, _⟩ => rfl | ⟨1, _⟩ => rfl)
/-- Row p, column q of the self product reads the left factor at (p, k). -/
theorem lidx_v34 (p : Fin 50000) (q k : Fin 128) : lidx_main_v34 (ix2 p q) k = ix2 p k :=
  funext fun a => Fin.ext (by match a with | ⟨0, _⟩ => rfl | ⟨1, _⟩ => rfl)
/-- Row p, column q of the self product reads the right factor at (k, q). -/
theorem ridx_v34 (p : Fin 50000) (q k : Fin 128) : ridx_main_v34 (ix2 p q) k = ix2 k q :=
  funext fun a => Fin.ext (by match a with | ⟨0, _⟩ => rfl | ⟨1, _⟩ => rfl)
/-- The bias row broadcast along the rows: at (p, q) the two broadcasts read the bias at q. -/
theorem idx_bias0 (p : Fin 50000) (q : Fin 128) : idx_main_v29 (idx_main_v30 (ix2 p q)) = ix1 q :=
  funext fun a => Fin.ext (by match a with | ⟨0, _⟩ => rfl)

/-! ## The second layer: where its operations read their operands -/

/-- Row p, column q of the aggregated product reads the left factor at (p, k). -/
theorem lidx_v51 (p : Fin 50000) (q k : Fin 128) : lidx_main_v51 (ix2 p q) k = ix2 p k :=
  funext fun a => Fin.ext (by match a with | ⟨0, _⟩ => rfl | ⟨1, _⟩ => rfl)
/-- Row p, column q of the aggregated product reads the right factor at (k, q). -/
theorem ridx_v51 (p : Fin 50000) (q k : Fin 128) : ridx_main_v51 (ix2 p q) k = ix2 k q :=
  funext fun a => Fin.ext (by match a with | ⟨0, _⟩ => rfl | ⟨1, _⟩ => rfl)
/-- Row p, column q of the self product reads the left factor at (p, k). -/
theorem lidx_v59 (p : Fin 50000) (q k : Fin 128) : lidx_main_v59 (ix2 p q) k = ix2 p k :=
  funext fun a => Fin.ext (by match a with | ⟨0, _⟩ => rfl | ⟨1, _⟩ => rfl)
/-- Row p, column q of the self product reads the right factor at (k, q). -/
theorem ridx_v59 (p : Fin 50000) (q k : Fin 128) : ridx_main_v59 (ix2 p q) k = ix2 k q :=
  funext fun a => Fin.ext (by match a with | ⟨0, _⟩ => rfl | ⟨1, _⟩ => rfl)
/-- The bias row broadcast along the rows: at (p, q) the two broadcasts read the bias at q. -/
theorem idx_bias1 (p : Fin 50000) (q : Fin 128) : idx_main_v54 (idx_main_v55 (ix2 p q)) = ix1 q :=
  funext fun a => Fin.ext (by match a with | ⟨0, _⟩ => rfl)

/-! ## The third layer: where its operations read their operands -/

/-- Row p, column q of the aggregated product reads the left factor at (p, k). -/
theorem lidx_v76 (p : Fin 50000) (q k : Fin 128) : lidx_main_v76 (ix2 p q) k = ix2 p k :=
  funext fun a => Fin.ext (by match a with | ⟨0, _⟩ => rfl | ⟨1, _⟩ => rfl)
/-- Row p, column q of the aggregated product reads the right factor at (k, q). -/
theorem ridx_v76 (p : Fin 50000) (q k : Fin 128) : ridx_main_v76 (ix2 p q) k = ix2 k q :=
  funext fun a => Fin.ext (by match a with | ⟨0, _⟩ => rfl | ⟨1, _⟩ => rfl)
/-- Row p, column q of the self product reads the left factor at (p, k). -/
theorem lidx_v84 (p : Fin 50000) (q k : Fin 128) : lidx_main_v84 (ix2 p q) k = ix2 p k :=
  funext fun a => Fin.ext (by match a with | ⟨0, _⟩ => rfl | ⟨1, _⟩ => rfl)
/-- Row p, column q of the self product reads the right factor at (k, q). -/
theorem ridx_v84 (p : Fin 50000) (q k : Fin 128) : ridx_main_v84 (ix2 p q) k = ix2 k q :=
  funext fun a => Fin.ext (by match a with | ⟨0, _⟩ => rfl | ⟨1, _⟩ => rfl)
/-- The bias row broadcast along the rows: at (p, q) the two broadcasts read the bias at q. -/
theorem idx_bias2 (p : Fin 50000) (q : Fin 128) : idx_main_v79 (idx_main_v80 (ix2 p q)) = ix1 q :=
  funext fun a => Fin.ext (by match a with | ⟨0, _⟩ => rfl)

/-- The first layer's output at (p, q): the aggregated features against the neighbour weights, plus the layer's input
    against the self weights, plus the bias at q. -/
theorem layer0_apply (x0 : (⟨S50000x128, .f32⟩ : BufTy).Contents (Elt Ideal))
    (x1 : (⟨S3x128x128, .f32⟩ : BufTy).Contents (Elt Ideal)) (x2 : (⟨S3x128, .f32⟩ : BufTy).Contents (Elt Ideal))
    (x3 : (⟨S3x128x128, .f32⟩ : BufTy).Contents (Elt Ideal)) (x4 x5 : (⟨S800000, .i32⟩ : BufTy).Contents (Elt Ideal))
    (p : Fin 50000) (q : Fin 128) :
    val_main_v35 (F := Ideal) x0 x1 x2 x3 x4 x5 (ix2 p q)
      = ((∑ k : Fin 128, val_main_v23 (F := Ideal) x0 x4 x5 (ix2 p k) * val_main_v25 (F := Ideal) x1 (ix2 k q))
          + ∑ k : Fin 128, x0 (ix2 p k) * val_main_v33 (F := Ideal) x3 (ix2 k q))
        + val_main_v28 (F := Ideal) x2 (ix1 q) := by
  rw [val_main_v35_apply, val_main_v31_apply, val_main_v26_apply, val_main_v30_apply, val_main_v29_apply,
    val_main_v34_apply]
  simp only [Ideal.addf_def, lidx_v26, ridx_v26, lidx_v34, ridx_v34, idx_bias0]
  exact add_right_comm _ _ _

/-- The second layer's output at (p, q): the aggregated features against the neighbour weights, plus the layer's input
    against the self weights, plus the bias at q. -/
theorem layer1_apply (x0 : (⟨S50000x128, .f32⟩ : BufTy).Contents (Elt Ideal))
    (x1 : (⟨S3x128x128, .f32⟩ : BufTy).Contents (Elt Ideal)) (x2 : (⟨S3x128, .f32⟩ : BufTy).Contents (Elt Ideal))
    (x3 : (⟨S3x128x128, .f32⟩ : BufTy).Contents (Elt Ideal)) (x4 x5 : (⟨S800000, .i32⟩ : BufTy).Contents (Elt Ideal))
    (p : Fin 50000) (q : Fin 128) :
    val_main_v60 (F := Ideal) x0 x1 x2 x3 x4 x5 (ix2 p q)
      = ((∑ k : Fin 128, val_main_v48 (F := Ideal) x0 x1 x2 x3 x4 x5 (ix2 p k) * val_main_v50 (F := Ideal) x1 (ix2 k q))
          + ∑ k : Fin 128, val_main_v36 (F := Ideal) x0 x1 x2 x3 x4 x5 (ix2 p k) * val_main_v58 (F := Ideal) x3 (ix2 k q))
        + val_main_v53 (F := Ideal) x2 (ix1 q) := by
  rw [val_main_v60_apply, val_main_v56_apply, val_main_v51_apply, val_main_v55_apply, val_main_v54_apply,
    val_main_v59_apply]
  simp only [Ideal.addf_def, lidx_v51, ridx_v51, lidx_v59, ridx_v59, idx_bias1]
  exact add_right_comm _ _ _

/-- The third layer's output at (p, q): the aggregated features against the neighbour weights, plus the layer's input
    against the self weights, plus the bias at q. -/
theorem layer2_apply (x0 : (⟨S50000x128, .f32⟩ : BufTy).Contents (Elt Ideal))
    (x1 : (⟨S3x128x128, .f32⟩ : BufTy).Contents (Elt Ideal)) (x2 : (⟨S3x128, .f32⟩ : BufTy).Contents (Elt Ideal))
    (x3 : (⟨S3x128x128, .f32⟩ : BufTy).Contents (Elt Ideal)) (x4 x5 : (⟨S800000, .i32⟩ : BufTy).Contents (Elt Ideal))
    (p : Fin 50000) (q : Fin 128) :
    val_main_v85 (F := Ideal) x0 x1 x2 x3 x4 x5 (ix2 p q)
      = ((∑ k : Fin 128, val_main_v73 (F := Ideal) x0 x1 x2 x3 x4 x5 (ix2 p k) * val_main_v75 (F := Ideal) x1 (ix2 k q))
          + ∑ k : Fin 128, val_main_v61 (F := Ideal) x0 x1 x2 x3 x4 x5 (ix2 p k) * val_main_v83 (F := Ideal) x3 (ix2 k q))
        + val_main_v78 (F := Ideal) x2 (ix1 q) := by
  rw [val_main_v85_apply, val_main_v81_apply, val_main_v76_apply, val_main_v80_apply, val_main_v79_apply,
    val_main_v84_apply]
  simp only [Ideal.addf_def, lidx_v76, ridx_v76, lidx_v84, ridx_v84, idx_bias2]
  exact add_right_comm _ _ _

end Cert.ReferenceIdeal.RefLayer
-- ==== Proof.LibNary3.lean ====
/-
  A host operation over a LITERAL family of three references (a concatenate of three operands): its result with each
  operand's contents at its own reference, so that the operands' contents can be rewritten further. The library states
  this for a family of four; this is the same statement for three, in both of the forms the library uses (for
  rewriting, and for one simplification pass with the result reference un-indexed).
-/
import Idealize.ShloMosaic.Lib.StableHlo.Run

namespace Idealize.ShloMosaic.StableHlo

variable {τ : Topo} {sig : RefSig} {Val : EltTy → Type}
variable {x a b y : Ref sig .tc}

/-- `nary` over the literal family `![x, a, b]`: the function applied to the three operands' contents, each read at its
    own reference (`Fin.cons` in place of `fun k => F (![x, a, b] k)`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for one simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.Bridge.lean ====
/-
  The value of the idealized kernel program, stage by stage, against the reference's stages.
  Both programs compute, once, the in-degree of every node and its reciprocal where positive, and then three times:
  gather the features at the edges' sources, add them up at the edges' targets, scale by the reciprocal degree, and
  combine  agg·Wl + h·Wr + bias  — the kernel program in a pallas_call per layer, the reference by two host matrix
  products and two additions in the other order —, rectify, and at the end stack the three layers' outputs.
  The host stretches of the kernel program are the reference's own operations on the same values, so what they write
  is the reference's stage of the same name once what they read is; a region's output is the layer's function of the
  arrays it is entered with, which at the ideal instance is the reference's  (agg·Wl + bias) + h·Wr  index by index,
  because addition of extended reals is commutative and associative. The stages are chained from the launch memory
  to the stacked result.
-/
import proofs.«107073_j33998961116076_1_alg».proof.Proof.KI.Run
import proofs.«107073_j33998961116076_1_alg».proof.Proof.KI.Final0
import proofs.«107073_j33998961116076_1_alg».proof.Proof.KI.Final1
import proofs.«107073_j33998961116076_1_alg».proof.Proof.KI.Final2
import proofs.«107073_j33998961116076_1_alg».proof.Proof.RefRead
import proofs.«107073_j33998961116076_1_alg».proof.Proof.RefLayer
import proofs.«107073_j33998961116076_1_alg».proof.Proof.LibNary3
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.SL.Sem Idealize.ShloMosaic.StableHlo Idealize.ShloMosaic.ValueIdx
open Cert.KernelIdeal Cert.KernelIdeal.Gen
open Cert.ReferenceIdeal.ReadP

/-! ## What a stretch of host operations leaves alone -/

section Keep
variable {F : FTy → Type} [FloatOps F]
variable (m : (ℓ : Loc nD τ sig) → Buf (Elt F) ℓ) (ρ : Dev nD → PrngReg) (c : Dev nD)

theorem W3_keep (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl
theorem W6_keep (r : Ref sig .tc) (h0 : r ∉ hostOps1_W) (h1 : r ∉ hostOps1_1_W) :
    W6 m ρ c (Proc.devRef .tc r) = W4 m ρ c (Proc.devRef .tc r) :=
  (StableHlo.after_of_writes_sub hostOps1_1 _ hostOps1_1_writes h1).trans (StableHlo.after_of_writes_sub hostOps1 _ hostOps1_writes h0)
theorem W9_keep (r : Ref sig .tc) (h0 : r ∉ hostOps2_W) (h1 : r ∉ hostOps2_1_W) :
    W9 m ρ c (Proc.devRef .tc r) = W7 m ρ c (Proc.devRef .tc r) :=
  (StableHlo.after_of_writes_sub hostOps2_1 _ hostOps2_1_writes h1).trans (StableHlo.after_of_writes_sub hostOps2 _ hostOps2_writes h0)

/-- An argument, or any buffer nothing before the second region writes, at the first region's exit. -/
theorem W4_keep (r : Ref sig .tc) (h0 : r ∉ hostOps0_W) (h1 : r ∉ hostOps0_1_W) (h2 : r ∉ hostOps0_2_W) (hne : ∀ w, Pipeline.arrRef spec0 w ≠ r) :
    W4 m ρ c (Proc.devRef .tc r) = m ((c : Thread nD τ).loc r) :=
  (W4_of_ne m ρ c r hne).trans (W3_keep m ρ c r h0 h1 h2)
theorem W7_keep (r : Ref sig .tc) (h0 : r ∉ hostOps0_W) (h1 : r ∉ hostOps0_1_W) (h2 : r ∉ hostOps0_2_W) (hne : ∀ w, Pipeline.arrRef spec0 w ≠ r)
    (h3 : r ∉ hostOps1_W) (h4 : r ∉ hostOps1_1_W) (hne1 : ∀ w, Pipeline.arrRef spec1 w ≠ r) :
    W7 m ρ c (Proc.devRef .tc r) = m ((c : Thread nD τ).loc r) :=
  (W7_of_ne m ρ c r hne1).trans ((W6_keep m ρ c r h3 h4).trans (W4_keep m ρ c r h0 h1 h2 hne))

end Keep

/-! ## The host stretches write the reference's stages -/

section Stages
variable {F : FTy → Type} [FloatOps F]
variable (m : (ℓ : Loc nD τ sig) → Buf (Elt F) ℓ) (ρ : Dev nD → PrngReg) (c : Dev nD)

/-- The six arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ### Before the first region: from the launch memory -/

set_option maxHeartbeats 4000000 in
/-- The reciprocal in-degree, as a column. -/
theorem W3_v11 : W3 m ρ c (Proc.devRef .tc main_v11) = val_main_v11 (F := F) (a5 m c) := by
  show StableHlo.after hostOps0_2 (StableHlo.after hostOps0_1 (StableHlo.after hostOps0 (W0 m ρ c))) (Proc.devRef .tc main_v11) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 4000000 in
/-- The first layer's aggregated neighbour features. -/
theorem W3_v23 : W3 m ρ c (Proc.devRef .tc main_v23) = val_main_v23 (F := F) (a0 m c) (a4 m c) (a5 m c) := by
  show StableHlo.after hostOps0_2 (StableHlo.after hostOps0_1 (StableHlo.after hostOps0 (W0 m ρ c))) (Proc.devRef .tc main_v23) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 4000000 in
/-- The first layer's neighbour weight. -/
theorem W3_v25 : W3 m ρ c (Proc.devRef .tc main_v25) = val_main_v25 (F := F) (a1 m c) := by
  show StableHlo.after hostOps0_2 (StableHlo.after hostOps0_1 (StableHlo.after hostOps0 (W0 m ρ c))) (Proc.devRef .tc main_v25) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 4000000 in
/-- The first layer's root weight. -/
theorem W3_v29 : W3 m ρ c (Proc.devRef .tc main_v29) = val_main_v33 (F := F) (a3 m c) := by
  show StableHlo.after hostOps0_2 (StableHlo.after hostOps0_1 (StableHlo.after hostOps0 (W0 m ρ c))) (Proc.devRef .tc main_v29) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 4000000 in
/-- The first layer's bias, as a row: the reference's bias vector with a unit axis in front. -/
theorem W3_v30 : W3 m ρ c (Proc.devRef .tc main_v30) = shapeCast S1x128 (val_main_v28 (F := F) (a2 m c)) shapeCasts_S128_S1x128 := by
  show StableHlo.after hostOps0_2 (StableHlo.after hostOps0_1 (StableHlo.after hostOps0 (W0 m ρ c))) (Proc.devRef .tc main_v30) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

theorem W3_arg0 : W3 m ρ c (Proc.devRef .tc main_arg0) = a0 m c := W3_keep m ρ c main_arg0 (by decide) (by decide) (by decide)
theorem W4_v11 : W4 m ρ c (Proc.devRef .tc main_v11) = val_main_v11 (F := F) (a5 m c) :=
  (W4_of_ne m ρ c main_v11 (by decide)).trans (W3_v11 m ρ c)

/-! ### Between the first and the second region: from the first region's exit, given the first layer's output -/

section
variable (ho0 : W4 m ρ c (Proc.devRef .tc main_v31) = val_main_v35 (F := F) (a0 m c) (a1 m c) (a2 m c) (a3 m c) (a4 m c) (a5 m c))
include ho0
set_option maxHeartbeats 4000000 in
/-- The rectified first output: the second layer's node features. -/
theorem W6_v32 : W6 m ρ c (Proc.devRef .tc main_v32) = val_main_v36 (F := F) (a0 m c) (a1 m c) (a2 m c) (a3 m c) (a4 m c) (a5 m c) := by
  show StableHlo.after hostOps1_1 (StableHlo.after hostOps1 (W4 m ρ c)) (Proc.devRef .tc main_v32) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [ho0]
  rfl

set_option maxHeartbeats 4000000 in
/-- The second layer's aggregated neighbour features. -/
theorem W6_v44 : W6 m ρ c (Proc.devRef .tc main_v44) = val_main_v48 (F := F) (a0 m c) (a1 m c) (a2 m c) (a3 m c) (a4 m c) (a5 m c) := by
  show StableHlo.after hostOps1_1 (StableHlo.after hostOps1 (W4 m ρ c)) (Proc.devRef .tc main_v44) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [ho0, W4_keep m ρ c main_arg4 (by decide) (by decide) (by decide) (by decide), W4_keep m ρ c main_arg5 (by decide) (by decide) (by decide) (by decide), W4_v11 m ρ c]
  rfl

end
set_option maxHeartbeats 4000000 in
theorem W6_v46 : W6 m ρ c (Proc.devRef .tc main_v46) = val_main_v50 (F := F) (a1 m c) := by
  show StableHlo.after hostOps1_1 (StableHlo.after hostOps1 (W4 m ρ c)) (Proc.devRef .tc main_v46) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W4_keep m ρ c main_arg1 (by decide) (by decide) (by decide) (by decide)]
  rfl

set_option maxHeartbeats 4000000 in
theorem W6_v50 : W6 m ρ c (Proc.devRef .tc main_v50) = val_main_v58 (F := F) (a3 m c) := by
  show StableHlo.after hostOps1_1 (StableHlo.after hostOps1 (W4 m ρ c)) (Proc.devRef .tc main_v50) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W4_keep m ρ c main_arg3 (by decide) (by decide) (by decide) (by decide)]
  rfl

set_option maxHeartbeats 4000000 in
theorem W6_v51 : W6 m ρ c (Proc.devRef .tc main_v51) = shapeCast S1x128 (val_main_v53 (F := F) (a2 m c)) shapeCasts_S128_S1x128 := by
  show StableHlo.after hostOps1_1 (StableHlo.after hostOps1 (W4 m ρ c)) (Proc.devRef .tc main_v51) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W4_keep m ρ c main_arg2 (by decide) (by decide) (by decide) (by decide)]
  rfl

theorem W7_v11 : W7 m ρ c (Proc.devRef .tc main_v11) = val_main_v11 (F := F) (a5 m c) :=
  (W7_of_ne m ρ c main_v11 (by decide)).trans ((W6_keep m ρ c main_v11 (by decide) (by decide)).trans (W4_v11 m ρ c))

/-! ### Between the second and the third region: from the second region's exit, given the second layer's output -/

section
variable (ho1 : W7 m ρ c (Proc.devRef .tc main_v52) = val_main_v60 (F := F) (a0 m c) (a1 m c) (a2 m c) (a3 m c) (a4 m c) (a5 m c))
include ho1
set_option maxHeartbeats 4000000 in
/-- The rectified second output: the third layer's node features. -/
theorem W9_v53 : W9 m ρ c (Proc.devRef .tc main_v53) = val_main_v61 (F := F) (a0 m c) (a1 m c) (a2 m c) (a3 m c) (a4 m c) (a5 m c) := by
  show StableHlo.after hostOps2_1 (StableHlo.after hostOps2 (W7 m ρ c)) (Proc.devRef .tc main_v53) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [ho1]
  rfl

set_option maxHeartbeats 4000000 in
/-- The third layer's aggregated neighbour features. -/
theorem W9_v65 : W9 m ρ c (Proc.devRef .tc main_v65) = val_main_v73 (F := F) (a0 m c) (a1 m c) (a2 m c) (a3 m c) (a4 m c) (a5 m c) := by
  show StableHlo.after hostOps2_1 (StableHlo.after hostOps2 (W7 m ρ c)) (Proc.devRef .tc main_v65) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [ho1, W7_keep m ρ c main_arg4 (by decide) (by decide) (by decide) (by decide) (by decide) (by decide) (by decide), W7_keep m ρ c main_arg5 (by decide) (by decide) (by decide) (by decide) (by decide) (by decide) (by decide), W7_v11 m ρ c]
  rfl

end
set_option maxHeartbeats 4000000 in
theorem W9_v67 : W9 m ρ c (Proc.devRef .tc main_v67) = val_main_v75 (F := F) (a1 m c) := by
  show StableHlo.after hostOps2_1 (StableHlo.after hostOps2 (W7 m ρ c)) (Proc.devRef .tc main_v67) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W7_keep m ρ c main_arg1 (by decide) (by decide) (by decide) (by decide) (by decide) (by decide) (by decide)]
  rfl

set_option maxHeartbeats 4000000 in
theorem W9_v71 : W9 m ρ c (Proc.devRef .tc main_v71) = val_main_v83 (F := F) (a3 m c) := by
  show StableHlo.after hostOps2_1 (StableHlo.after hostOps2 (W7 m ρ c)) (Proc.devRef .tc main_v71) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W7_keep m ρ c main_arg3 (by decide) (by decide) (by decide) (by decide) (by decide) (by decide) (by decide)]
  rfl

set_option maxHeartbeats 4000000 in
theorem W9_v72 : W9 m ρ c (Proc.devRef .tc main_v72) = shapeCast S1x128 (val_main_v78 (F := F) (a2 m c)) shapeCasts_S128_S1x128 := by
  show StableHlo.after hostOps2_1 (StableHlo.after hostOps2 (W7 m ρ c)) (Proc.devRef .tc main_v72) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W7_keep m ρ c main_arg2 (by decide) (by decide) (by decide) (by decide) (by decide) (by decide) (by decide)]
  rfl

/-! ### After the third region: the three outputs stacked -/

/-- The first layer's output is still in its buffer when the outputs are stacked. -/
theorem W10_v31 : W10 m ρ c (Proc.devRef .tc main_v31) = W4 m ρ c (Proc.devRef .tc main_v31) :=
  (W10_of_ne m ρ c main_v31 (by decide)).trans <| (W9_keep m ρ c main_v31 (by decide) (by decide)).trans <|
    (W7_of_ne m ρ c main_v31 (by decide)).trans (W6_keep m ρ c main_v31 (by decide) (by decide))
/-- So is the second layer's. -/
theorem W10_v52 : W10 m ρ c (Proc.devRef .tc main_v52) = W7 m ρ c (Proc.devRef .tc main_v52) :=
  (W10_of_ne m ρ c main_v52 (by decide)).trans (W9_keep m ρ c main_v52 (by decide) (by decide))

set_option maxHeartbeats 4000000 in
/-- The result: the three layers' outputs stacked along a new middle axis. -/
theorem W11_v77 (ho0 : W4 m ρ c (Proc.devRef .tc main_v31) = val_main_v35 (F := F) (a0 m c) (a1 m c) (a2 m c) (a3 m c) (a4 m c) (a5 m c))
    (ho1 : W7 m ρ c (Proc.devRef .tc main_v52) = val_main_v60 (F := F) (a0 m c) (a1 m c) (a2 m c) (a3 m c) (a4 m c) (a5 m c))
    (ho2 : W10 m ρ c (Proc.devRef .tc main_v73) = val_main_v85 (F := F) (a0 m c) (a1 m c) (a2 m c) (a3 m c) (a4 m c) (a5 m c)) :
    W11 m ρ c (Proc.devRef .tc main_v77) = val_main_v89 (F := F) (a0 m c) (a1 m c) (a2 m c) (a3 m c) (a4 m c) (a5 m c) := by
  show StableHlo.after hostOps3 (W10 m ρ c) (Proc.devRef .tc main_v77) = _
  simp only [after_cons, after_nil]
  rw [nary3_result]
  repeat (first
    | rw [unary_result]
    | (rw [unary_result_ne]; rotate_left; decide))
  rw [W10_v31 m ρ c, W10_v52 m ρ c, ho0, ho1, ho2]
  rfl

end Stages

/-! ## The layers, at the ideal instance -/

section Layers
variable (m : (ℓ : Loc nD τ sig) → Buf (Elt Ideal) ℓ) (ρ : Dev nD → PrngReg) (c : Dev nD)

/-- A bias vector with a unit axis put in front, read at (0, q), is the vector at q. -/
theorem bias_row (b128 : S128.Idx → EReal) (q : Fin 128) :
    shapeCast S1x128 b128 shapeCasts_S128_S1x128 (ix2 0 q) = b128 (ix1 q) := by
  refine (shapeCast_addUnit_apply ![128] b128 shapeCasts_S128_S1x128 (ix2 0 q)).trans (congrArg b128 ?_)
  funext a
  match a with
  | ⟨0, _⟩ => rfl

/-- The layer's function of five arrays is an array `O` that, index by index, is the two matrix products and the bias
    added in any grouping: the bias row read at (0, q) is the bias vector at q. -/
theorem layer_eq0 (A H : S50000x128.Idx → EReal) (WL WR : S128x128.Idx → EReal) (b128 : S128.Idx → EReal) (O : S50000x128.Idx → EReal)
    (hO : ∀ (p : Fin 50000) (q : Fin 128), O (ix2 p q)
      = ((∑ k : Fin 128, A (ix2 p k) * WL (ix2 k q)) + ∑ k : Fin 128, H (ix2 p k) * WR (ix2 k q)) + b128 (ix1 q)) :
    R0.layerOut A H WL (shapeCast S1x128 b128 shapeCasts_S128_S1x128) WR = O := by
  funext i
  obtain ⟨p, q, rfl⟩ : ∃ (p : Fin 50000) (q : Fin 128), i = ix2 p q := ⟨i 0, i 1, eq_ix2 i⟩
  rw [hO p q, ← bias_row b128 q]
  rfl

/-- The layer's function of five arrays is an array `O` that, index by index, is the two matrix products and the bias
    added in any grouping: the bias row read at (0, q) is the bias vector at q. -/
theorem layer_eq1 (A H : S50000x128.Idx → EReal) (WL WR : S128x128.Idx → EReal) (b128 : S128.Idx → EReal) (O : S50000x128.Idx → EReal)
    (hO : ∀ (p : Fin 50000) (q : Fin 128), O (ix2 p q)
      = ((∑ k : Fin 128, A (ix2 p k) * WL (ix2 k q)) + ∑ k : Fin 128, H (ix2 p k) * WR (ix2 k q)) + b128 (ix1 q)) :
    R1.layerOut A H WL (shapeCast S1x128 b128 shapeCasts_S128_S1x128) WR = O := by
  funext i
  obtain ⟨p, q, rfl⟩ : ∃ (p : Fin 50000) (q : Fin 128), i = ix2 p q := ⟨i 0, i 1, eq_ix2 i⟩
  rw [hO p q, ← bias_row b128 q]
  rfl

/-- The layer's function of five arrays is an array `O` that, index by index, is the two matrix products and the bias
    added in any grouping: the bias row read at (0, q) is the bias vector at q. -/
theorem layer_eq2 (A H : S50000x128.Idx → EReal) (WL WR : S128x128.Idx → EReal) (b128 : S128.Idx → EReal) (O : S50000x128.Idx → EReal)
    (hO : ∀ (p : Fin 50000) (q : Fin 128), O (ix2 p q)
      = ((∑ k : Fin 128, A (ix2 p k) * WL (ix2 k q)) + ∑ k : Fin 128, H (ix2 p k) * WR (ix2 k q)) + b128 (ix1 q)) :
    R2.layerOut A H WL (shapeCast S1x128 b128 shapeCasts_S128_S1x128) WR = O := by
  funext i
  obtain ⟨p, q, rfl⟩ : ∃ (p : Fin 50000) (q : Fin 128), i = ix2 p q := ⟨i 0, i 1, eq_ix2 i⟩
  rw [hO p q, ← bias_row b128 q]
  rfl

/-- THE FIRST LAYER: the first region leaves the reference's first output. -/
theorem o0 : W4 m ρ c (Proc.devRef .tc main_v31) = val_main_v35 (F := Ideal) (a0 m c) (a1 m c) (a2 m c) (a3 m c) (a4 m c) (a5 m c) := by
  refine (W4_arr m ρ c 5).trans ((R0.final (U3 m ρ) c).trans ?_)
  show R0.layerOut (W3 m ρ c (Proc.devRef .tc main_v23)) (W3 m ρ c (Proc.devRef .tc main_arg0)) (W3 m ρ c (Proc.devRef .tc main_v25))
    (W3 m ρ c (Proc.devRef .tc main_v30)) (W3 m ρ c (Proc.devRef .tc main_v29)) = _
  rw [W3_v23 m ρ c, W3_arg0 m ρ c, W3_v25 m ρ c, W3_v30 m ρ c, W3_v29 m ρ c]
  exact layer_eq0 _ _ _ _ _ _ (fun p q => Cert.ReferenceIdeal.RefLayer.layer0_apply _ _ _ _ _ _ p q)

/-- THE SECOND LAYER. -/
theorem o1 : W7 m ρ c (Proc.devRef .tc main_v52) = val_main_v60 (F := Ideal) (a0 m c) (a1 m c) (a2 m c) (a3 m c) (a4 m c) (a5 m c) := by
  refine (W7_arr m ρ c 5).trans ((R1.final (U6 m ρ) c).trans ?_)
  show R1.layerOut (W6 m ρ c (Proc.devRef .tc main_v44)) (W6 m ρ c (Proc.devRef .tc main_v32)) (W6 m ρ c (Proc.devRef .tc main_v46))
    (W6 m ρ c (Proc.devRef .tc main_v51)) (W6 m ρ c (Proc.devRef .tc main_v50)) = _
  rw [W6_v44 m ρ c (o0 m ρ c), W6_v32 m ρ c (o0 m ρ c), W6_v46 m ρ c, W6_v51 m ρ c, W6_v50 m ρ c]
  exact layer_eq1 _ _ _ _ _ _ (fun p q => Cert.ReferenceIdeal.RefLayer.layer1_apply _ _ _ _ _ _ p q)

/-- THE THIRD LAYER. -/
theorem o2 : W10 m ρ c (Proc.devRef .tc main_v73) = val_main_v85 (F := Ideal) (a0 m c) (a1 m c) (a2 m c) (a3 m c) (a4 m c) (a5 m c) := by
  refine (W10_arr m ρ c 5).trans ((R2.final (U9 m ρ) c).trans ?_)
  show R2.layerOut (W9 m ρ c (Proc.devRef .tc main_v65)) (W9 m ρ c (Proc.devRef .tc main_v53)) (W9 m ρ c (Proc.devRef .tc main_v67))
    (W9 m ρ c (Proc.devRef .tc main_v72)) (W9 m ρ c (Proc.devRef .tc main_v71)) = _
  rw [W9_v65 m ρ c (o1 m ρ c), W9_v53 m ρ c (o1 m ρ c), W9_v67 m ρ c, W9_v72 m ρ c, W9_v71 m ρ c]
  exact layer_eq2 _ _ _ _ _ _ (fun p q => Cert.ReferenceIdeal.RefLayer.layer2_apply _ _ _ _ _ _ p q)

/-- THE RESULT of the idealized kernel program is the reference's result stage of the same arguments. -/
theorem result : W11 m ρ c (Proc.devRef .tc main_v77) = val_main_v89 (F := Ideal) (a0 m c) (a1 m c) (a2 m c) (a3 m c) (a4 m c) (a5 m c) :=
  W11_v77 m ρ c (o0 m ρ c) (o1 m ρ c) (o2 m ρ c)

end Layers

end Cert.KernelIdeal.Fr

end
-- ==== Proof.lean ====
/-
  The certificate of a three-layer mean-aggregation graph convolution: per layer the neighbours' features are
  gathered along the edges, added up at each target node and scaled by the reciprocal in-degree, and the dense step
  agg·Wl + h·Wr + bias  is a pallas_call over ten blocks of 5000 nodes; the reference does the dense step on the host as
  (agg·Wl + bias) + h·Wr.
  The three frames: the word-level program and its idealization run through their eleven items (host stretches and
  three regions) with every buffer's contents named at each boundary, and the arguments are read back unchanged
  (Proof/K/Run.lean, Proof/KI/Run.lean); the reference is host operations only, and its frame is its run with the result
  dropped. The idealization rewrote no operation, so there is nothing to preserve. The value claim: the kernel
  program's result buffer ends at the reference's result stage of the same arguments (Proof/Bridge.lean) — the host
  stretches are the same operations on the same values, and a region's output is the reference's layer output index
  by index because addition of extended reals is commutative and associative; no finiteness of the inputs is used.
-/
import proofs.«107073_j33998961116076_1_alg».proof.Defs
import proofs.«107073_j33998961116076_1_alg».proof.Proof.Gen.Kernel
import proofs.«107073_j33998961116076_1_alg».proof.Proof.Gen.KernelIdeal
import proofs.«107073_j33998961116076_1_alg».proof.Proof.Gen.ReferenceIdeal
import proofs.«107073_j33998961116076_1_alg».proof.Proof.Gen.Pre_finite_inputs
import proofs.«107073_j33998961116076_1_alg».proof.Proof.K.Run
import proofs.«107073_j33998961116076_1_alg».proof.Proof.KI.Run
import proofs.«107073_j33998961116076_1_alg».proof.Proof.RefRun
import proofs.«107073_j33998961116076_1_alg».proof.Proof.RefRead
import proofs.«107073_j33998961116076_1_alg».proof.Proof.Bridge
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the six arguments, both idealized programs end, the kernel program's result buffer
    and the reference's holding one and the same array, and the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.W11 m ρ c (Proc.devRef .tc Cert.KernelIdeal.main_v77), ?_, ?_⟩
  · exact (θ_run Cert.KernelIdeal.defs _ _).mono (fun r h c =>
      ⟨h c _ (Cert.KernelIdeal.Fr.mem_uc Cert.KernelIdeal.main_v77 (by decide)),
       (h c _ (Cert.KernelIdeal.Fr.mem_uc Cert.KernelIdeal.main_arg0 (by decide))).trans (Cert.KernelIdeal.Fr.W11_main_arg0 m ρ c),
       (h c _ (Cert.KernelIdeal.Fr.mem_uc Cert.KernelIdeal.main_arg1 (by decide))).trans (Cert.KernelIdeal.Fr.W11_main_arg1 m ρ c),
       (h c _ (Cert.KernelIdeal.Fr.mem_uc Cert.KernelIdeal.main_arg2 (by decide))).trans (Cert.KernelIdeal.Fr.W11_main_arg2 m ρ c),
       (h c _ (Cert.KernelIdeal.Fr.mem_uc Cert.KernelIdeal.main_arg3 (by decide))).trans (Cert.KernelIdeal.Fr.W11_main_arg3 m ρ c),
       (h c _ (Cert.KernelIdeal.Fr.mem_uc Cert.KernelIdeal.main_arg4 (by decide))).trans (Cert.KernelIdeal.Fr.W11_main_arg4 m ρ c),
       (h c _ (Cert.KernelIdeal.Fr.mem_uc Cert.KernelIdeal.main_arg5 (by decide))).trans (Cert.KernelIdeal.Fr.W11_main_arg5 m ρ c)⟩)
      (Cert.KernelIdeal.Fr.run_main m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v89_eq, (hagree c).1, (hagree c).2.1, (hagree c).2.2.1, (hagree c).2.2.2.1,
      (hagree c).2.2.2.2.1, (hagree c).2.2.2.2.2]
    exact (Cert.KernelIdeal.Fr.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
